-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S512x512 : Shape := ⟨2, ![512, 512]⟩
abbrev S256x256 : Shape := ⟨2, ![256, 256]⟩
abbrev S256 : Shape := ⟨1, ![256]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_arg8 : FVec F S256x256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S512x128 .f32) (main_arg1 : FVec F S512x512 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S512x128 : Shape := ⟨2, ![512, 128]⟩
abbrev S512x512 : Shape := ⟨2, ![512, 512]⟩
abbrev S256x256 : Shape := ⟨2, ![256, 256]⟩
abbrev S256 : Shape := ⟨1, ![256]⟩
abbrev S256x128 : Shape := ⟨2, ![256, 128]⟩
abbrev S1x256 : Shape := ⟨2, ![1, 256]⟩
abbrev S512x256 : Shape := ⟨2, ![512, 256]⟩
abbrev S64x128 : Shape := ⟨2, ![64, 128]⟩
abbrev S128x128 : Shape := ⟨2, ![128, 128]⟩
abbrev S64x256 : Shape := ⟨2, ![64, 256]⟩
abbrev S128x256 : Shape := ⟨2, ![128, 256]⟩
abbrev S1x128x256 : Shape := ⟨3, ![1, 128, 256]⟩
abbrev S64x1x256 : Shape := ⟨3, ![64, 1, 256]⟩
abbrev S64x128x256 : Shape := ⟨3, ![64, 128, 256]⟩
abbrev S1x1x256 : Shape := ⟨3, ![1, 1, 256]⟩
abbrev S8192x256 : Shape := ⟨2, ![8192, 256]⟩
abbrev S64x128x1 : Shape := ⟨3, ![64, 128, 1]⟩

abbrev nBuf : Space → Nat
  | .hbm => 17
  | .vmem => 18
  | .smem => 0
  | _ => 0

abbrev bufTy : (tb : Table) → Fin (tcTables nBuf tb) → BufTy
  | .hbm, ⟨0, _⟩ => ⟨S512x128, .f32⟩
  | .hbm, ⟨1, _⟩ => ⟨S512x512, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S256x128, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S512x256, .f32⟩
  | .local _ .vmem, ⟨0, _⟩ => ⟨S64x128, .f32⟩
  | .local _ .vmem, ⟨1, _⟩ => ⟨S64x128, .f32⟩
  | .local _ .vmem, ⟨2, _⟩ => ⟨S128x128, .f32⟩
  | .local _ .vmem, ⟨3, _⟩ => ⟨S128x128, .f32⟩
  | .local _ .vmem, ⟨4, _⟩ => ⟨S64x128, .f32⟩
  | .local _ .vmem, ⟨5, _⟩ => ⟨S64x128, .f32⟩
  | .local _ .vmem, ⟨6, _⟩ => ⟨S256x128, .f32⟩
  | .local _ .vmem, ⟨7, _⟩ => ⟨S256x128, .f32⟩
  | .local _ .vmem, ⟨8, _⟩ => ⟨S1x256, .f32⟩
  | .local _ .vmem, ⟨9, _⟩ => ⟨S256x256, .f32⟩
  | .local _ .vmem, ⟨10, _⟩ => ⟨S1x256, .f32⟩
  | .local _ .vmem, ⟨11, _⟩ => ⟨S256x256, .f32⟩
  | .local _ .vmem, ⟨12, _⟩ => ⟨S1x256, .f32⟩
  | .local _ .vmem, ⟨13, _⟩ => ⟨S256x256, .f32⟩
  | .local _ .vmem, ⟨14, _⟩ => ⟨S1x256, .f32⟩
  | .local _ .vmem, ⟨15, _⟩ => ⟨S64x256, .f32⟩
  | .local _ .vmem, ⟨16, _⟩ => ⟨S64x256, .f32⟩
  | .local _ .vmem, ⟨17, _⟩ => ⟨S64x256, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v50 : BitVec 1 := Scalar.cmpi .eq arg1 c3_i32
  let v51 : BitVec 32 := Scalar.extui v50
  let c0_i32_24 : BitVec 32 := 0#32
  let v52 : BitVec 1 := Scalar.cmpi .ne v51 c0_i32_24
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  slices_S256x256_S256x128_0_0 : S256x256.Slices ![0, 0] S256x128
  slices_S256x256_S256x128_0_128 : S256x256.Slices ![0, 128] S256x128
  shapeCasts_S256_S1x256 : S256.ShapeCasts S1x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S128x256_S1x128x256 : S128x256.ShapeCasts S1x128x256
  shapeCasts_S64x256_S64x1x256 : S64x256.ShapeCasts S64x1x256
  broadcasts_S1x128x256_S64x128x256 : S1x128x256.Broadcasts S64x128x256
  broadcasts_S64x1x256_S64x128x256 : S64x1x256.Broadcasts S64x128x256
  shapeCasts_S1x256_S1x1x256 : S1x256.ShapeCasts S1x1x256
  broadcasts_S1x1x256_S64x128x256 : S1x1x256.Broadcasts S64x128x256
  shapeCasts_S64x128x256_S8192x256 : S64x128x256.ShapeCasts S8192x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  broadcasts_S1x256_S8192x256 : S1x256.Broadcasts S8192x256
  shapeCasts_S8192x256_S64x128x256 : S8192x256.ShapeCasts S64x128x256
  shapeCasts_S64x128_S64x128x1 : S64x128.ShapeCasts S64x128x1
  broadcasts_S64x128x1_S64x128x256 : S64x128x1.Broadcasts S64x128x256
  reduces_S64x128x256_S64x256 : S64x128x256.Reduces [1] S64x256
  broadcasts_S1x256_S64x256 : S1x256.Broadcasts S64x256
  dot_S128x128_S128x256_S128x256_1_0_0_1_n_n_wf : DotDims.WF S128x128 S128x256 S128x256 [1] [0] [0] [1] [] []
  dot_S64x128_S128x256_S64x256_1_0_0_1_n_n_wf : DotDims.WF S64x128 S128x256 S64x256 [1] [0] [0] [1] [] []
  dot_S8192x256_S256x256_S8192x256_1_0_0_1_n_n_wf : DotDims.WF S8192x256 S256x256 S8192x256 [1] [0] [0] [1] [] []
  dot_S64x256_S256x256_S64x256_1_0_0_1_n_n_wf : DotDims.WF S64x256 S256x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S512x128.size a
  hwx0_0 : ∀ i : grid0.Coords, EltTy.bits .f32 = 32 ∨ (Rect.block (s := S512x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S512x128.size a
  hwx0_1 : ∀ i : grid0.Coords, EltTy.bits .f32 = 32 ∨ (Rect.block (s := S512x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S512x512.size a
  hwx0_2 : ∀ i : grid0.Coords, EltTy.bits .f32 = 32 ∨ (Rect.block (s := S512x512) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S64x256.size a ≤ S512x256.size a
  hwx0_12 : ∀ i : grid0.Coords, EltTy.bits .f32 = 32 ∨ (Rect.block (s := S512x256) S64x256.size (cc0_transform_12 i) (hinb0_12 i)).WholeWords (EltTy.packing .f32)

variable [Facts₀]

def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S64x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | ⟨_ + 13, h⟩ => absurd h (Nat.not_lt.2 (Nat.le_add_left _ _))

class Facts : Prop extends Facts₀ where

variable [Facts]
-- ==== ReferenceIdeal.lean ====
abbrev S512x128 : Shape := ⟨2, ![512, 128]⟩
abbrev S512x512 : Shape := ⟨2, ![512, 512]⟩
abbrev S256x256 : Shape := ⟨2, ![256, 256]⟩
abbrev S256 : Shape := ⟨1, ![256]⟩
abbrev S256x128 : Shape := ⟨2, ![256, 128]⟩
abbrev S128x256 : Shape := ⟨2, ![128, 256]⟩
abbrev S512x256 : Shape := ⟨2, ![512, 256]⟩
abbrev S1x512x256 : Shape := ⟨3, ![1, 512, 256]⟩
abbrev S512x1x256 : Shape := ⟨3, ![512, 1, 256]⟩
abbrev S512x512x256 : Shape := ⟨3, ![512, 512, 256]⟩
abbrev S1x1x256 : Shape := ⟨3, ![1, 1, 256]⟩
abbrev S_ : Shape := ⟨0, ![]⟩
abbrev S512x512x1 : Shape := ⟨3, ![512, 512, 1]⟩
abbrev S1x256 : Shape := ⟨2, ![1, 256]⟩

abbrev nBuf : Space → Nat
  | .hbm => 52
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x512, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S256x128, .f32⟩
  | .hbm, ⟨12, _⟩ => ⟨S128x256, .f32⟩
  | .hbm, ⟨13, _⟩ => ⟨S512x256, .f32⟩
  | .hbm, ⟨14, _⟩ => ⟨S128x256, .f32⟩
  | .hbm, ⟨15, _⟩ => ⟨S512x256, .f32⟩
  | .hbm, ⟨16, _⟩ => ⟨S1x512x256, .f32⟩
  | .hbm, ⟨17, _⟩ => ⟨S512x1x256, .f32⟩
  | .hbm, ⟨18, _⟩ => ⟨S512x512x256, .f32⟩
  | .hbm, ⟨19, _⟩ => ⟨S512x512x256, .f32⟩
  | .hbm, ⟨20, _⟩ => ⟨S512x512x256, .f32⟩
  | .hbm, ⟨21, _⟩ => ⟨S1x1x256, .f32⟩
  | .hbm, ⟨22, _⟩ => ⟨S512x512x256, .f32⟩
  | .hbm, ⟨23, _⟩ => ⟨S512x512x256, .f32⟩
  | .hbm, ⟨24, _⟩ => ⟨S_, .f32⟩
  | .hbm, ⟨25, _⟩ => ⟨S512x512x256, .f32⟩
  | .hbm, ⟨26, _⟩ => ⟨S512x512x256, .f32⟩
  | .hbm, ⟨27, _⟩ => ⟨S512x512x256, .f32⟩
  | .hbm, ⟨28, _⟩ => ⟨S1x1x256, .f32⟩
  | .hbm, ⟨29, _⟩ => ⟨S512x512x256, .f32⟩
  | .hbm, ⟨30, _⟩ => ⟨S512x512x256, .f32⟩
  | .hbm, ⟨31, _⟩ => ⟨S512x512x1, .f32⟩
  | .hbm, ⟨32, _⟩ => ⟨S512x512x256, .f32⟩
  | .hbm, ⟨33, _⟩ => ⟨S512x512x256, .f32⟩
  | .hbm, ⟨34, _⟩ => ⟨S_, .f32⟩
  | .hbm, ⟨35, _⟩ => ⟨S512x256, .f32⟩
  | .hbm, ⟨36, _⟩ => ⟨S_, .f32⟩
  | .hbm, ⟨37, _⟩ => ⟨S512x256, .f32⟩
  | .hbm, ⟨38, _⟩ => ⟨S512x256, .f32⟩
  | .hbm, ⟨39, _⟩ => ⟨S256x256, .f32⟩
  | .hbm, ⟨40, _⟩ => ⟨S512x256, .f32⟩
  | .hbm, ⟨41, _⟩ => ⟨S1x256, .f32⟩
  | .hbm, ⟨42, _⟩ => ⟨S512x256, .f32⟩
  | .hbm, ⟨43, _⟩ => ⟨S512x256, .f32⟩
  | .hbm, ⟨44, _⟩ => ⟨S_, .f32⟩
  | .hbm, ⟨45, _⟩ => ⟨S512x256, .f32⟩
  | .hbm, ⟨46, _⟩ => ⟨S512x256, .f32⟩
  | .hbm, ⟨47, _⟩ => ⟨S256x256, .f32⟩
  | .hbm, ⟨48, _⟩ => ⟨S512x256, .f32⟩
  | .hbm, ⟨49, _⟩ => ⟨S1x256, .f32⟩
  | .hbm, ⟨50, _⟩ => ⟨S512x256, .f32⟩
  | .hbm, ⟨51, _⟩ => ⟨S512x256, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call1_cst : Ref sig .tc := ⟨.hbm, 44, rfl⟩
abbrev main_call1_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  slices_S256x256_S256x128_0_0 : S256x256.Slices ![0, 0] S256x128
  slices_S256x256_S256x128_0_128 : S256x256.Slices ![0, 128] S256x128
  transposes_S256x128_S128x256_1_0 : S256x128.Transposes [1, 0] S128x256
  bcast_S512x256_S1x512x256_1_2 : S512x256.BroadcastsInDim S1x512x256 (![1, 2] : Fin 2 → Fin S1x512x256.rank)
  bcast_S512x256_S512x1x256_0_2 : S512x256.BroadcastsInDim S512x1x256 (![0, 2] : Fin 2 → Fin S512x1x256.rank)
  bcast_S1x512x256_S512x512x256_0_1_2 : S1x512x256.BroadcastsInDim S512x512x256 (![0, 1, 2] : Fin 3 → Fin S512x512x256.rank)
  bcast_S512x1x256_S512x512x256_0_1_2 : S512x1x256.BroadcastsInDim S512x512x256 (![0, 1, 2] : Fin 3 → Fin S512x512x256.rank)
  bcast_S256_S1x1x256_2 : S256.BroadcastsInDim S1x1x256 (![2] : Fin 1 → Fin S1x1x256.rank)
  bcast_S1x1x256_S512x512x256_0_1_2 : S1x1x256.BroadcastsInDim S512x512x256 (![0, 1, 2] : Fin 3 → Fin S512x512x256.rank)
  bcast_S_S512x512x256 : S_.BroadcastsInDim S512x512x256 (![] : Fin 0 → Fin S512x512x256.rank)
  bcast_S512x512_S512x512x1_0_1 : S512x512.BroadcastsInDim S512x512x1 (![0, 1] : Fin 2 → Fin S512x512x1.rank)
  bcast_S512x512x1_S512x512x256_0_1_2 : S512x512x1.BroadcastsInDim S512x512x256 (![0, 1, 2] : Fin 3 → Fin S512x512x256.rank)
  reducesTo_S512x512x256_S512x256_d1 : S512x512x256.ReducesTo [1] S512x256
  h_S_ : 0 < S_.numel
  bcast_S_S512x256 : S_.BroadcastsInDim S512x256 (![] : Fin 0 → Fin S512x256.rank)
  transposes_S256x256_S256x256_1_0 : S256x256.Transposes [1, 0] S256x256
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  dot_S512x128_S128x256_S512x256_1_0_0_1_n_n_wf : DotDims.WF S512x128 S128x256 S512x256 [1] [0] [0] [1] [] []
  dot_S512x512x256_S256x256_S512x512x256_2_1_01_0_n_n_wf : DotDims.WF S512x512x256 S256x256 S512x512x256 [2] [1] [0, 1] [0] [] []
  dot_S512x256_S256x256_S512x256_1_0_0_1_n_n_wf : DotDims.WF S512x256 S256x256 S512x256 [1] [0] [0] [1] [] []

variable [Facts₀]

def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x512x256_S256x256_S512x512x256_2_1_01_0_n_n : DotDims S512x512x256 S256x256 S512x512x256 where
  lhsContracting := [2]
  rhsContracting := [1]
  lhsNonContracting := [0, 1]
  rhsNonContracting := [0]
  lhsBatch := []
  rhsBatch := []
  wf := dot_S512x512x256_S256x256_S512x512x256_2_1_01_0_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

class Facts : Prop extends Facts₀ where

variable [Facts]
-- ==== Proof.Spec.lean ====
/-
  The function both programs compute, over the extended reals, index by index.

  With x : [512,128], adj : [512,512], W1 : [256,256] (its left half acting on the neighbour row x[j], its right
  half on the own row x[i]), b1, W2, b2 the edge network and Wo1, bo1, Wo2, bo2 the output network:

    pa[j,h]     = ∑ d, x[j,d] · W1[h,d]
    pb[i,h]     = ∑ d, x[i,d] · W1[h,128+d]
    hid[i,j,h]  = max ((pa[j,h] + pb[i,h]) + b1[h]) 0
    edge[i,j,k] = (∑ h, hid[i,j,h] · W2[k,h]) + b2[k]
    agg[i,k]    = ∑ j, adj[i,j] · edge[i,j,k]
    pred[i,k]   = agg[i,k] · (1/512)
    h2[i,l]     = max ((∑ k, pred[i,k] · Wo1[l,k]) + bo1[l]) 0
    out[i,o]    = (∑ l, h2[i,l] · Wo2[o,l]) + bo2[o]
-/
import Idealize.ShloMosaic.PureOps.Ideal
import Idealize.ShloMosaic.Lib.ValueIdx

noncomputable section

namespace Cert.Spec

open Idealize.ShloMosaic Idealize.ShloMosaic.ValueIdx

abbrev T512x128 : Shape := ⟨2, ![512, 128]⟩
abbrev T512x512 : Shape := ⟨2, ![512, 512]⟩
abbrev T256x256 : Shape := ⟨2, ![256, 256]⟩
abbrev T256 : Shape := ⟨1, ![256]⟩
abbrev T512x256 : Shape := ⟨2, ![512, 256]⟩

/-- A column index of the left half of W1. -/
abbrev lo (d : Fin 128) : Fin 256 := ⟨d.val, by omega⟩
/-- A column index of the right half of W1. -/
abbrev hi (d : Fin 128) : Fin 256 := ⟨128 + d.val, by omega⟩

variable (x : T512x128.Idx → EReal) (adj : T512x512.Idx → EReal) (W1 : T256x256.Idx → EReal) (b1 : T256.Idx → EReal)
  (W2 : T256x256.Idx → EReal) (b2 : T256.Idx → EReal) (Wo1 : T256x256.Idx → EReal) (bo1 : T256.Idx → EReal)
  (Wo2 : T256x256.Idx → EReal) (bo2 : T256.Idx → EReal)

/-- The neighbour projection: row `j` of x against the left half of W1. -/
def pa (j : Fin 512) (h : Fin 256) : EReal := ∑ d : Fin 128, x (ix2 j d) * W1 (ix2 h (lo d))
/-- The own projection: row `i` of x against the right half of W1. -/
def pb (i : Fin 512) (h : Fin 256) : EReal := ∑ d : Fin 128, x (ix2 i d) * W1 (ix2 h (hi d))
/-- The hidden layer of the edge network at the pair (i, j). -/
def hid (i j : Fin 512) (h : Fin 256) : EReal := max ((pa x W1 j h + pb x W1 i h) + b1 (ix1 h)) 0
/-- The edge network's output at the pair (i, j). -/
def edge (i j : Fin 512) (k : Fin 256) : EReal := (∑ h : Fin 256, hid x W1 b1 i j h * W2 (ix2 k h)) + b2 (ix1 k)
/-- The adjacency-weighted sum over the neighbours. -/
def agg (i : Fin 512) (k : Fin 256) : EReal := ∑ j : Fin 512, adj (ix2 i j) * edge x W1 b1 W2 b2 i j k
/-- The mean over the 512 neighbours. -/
def pred (i : Fin 512) (k : Fin 256) : EReal := agg x adj W1 b1 W2 b2 i k * ((1 / 512 : ℝ) : EReal)
/-- The hidden layer of the output network. -/
def h2 (i : Fin 512) (l : Fin 256) : EReal :=
  max ((∑ k : Fin 256, pred x adj W1 b1 W2 b2 i k * Wo1 (ix2 l k)) + bo1 (ix1 l)) 0
/-- The output network. -/
def out (i : Fin 512) (o : Fin 256) : EReal :=
  (∑ l : Fin 256, h2 x adj W1 b1 W2 b2 Wo1 bo1 i l * Wo2 (ix2 o l)) + bo2 (ix1 o)

/-- The result array as one function of the ten argument arrays. -/
def G : T512x256.Idx → EReal := fun y => out x adj W1 b1 W2 b2 Wo1 bo1 Wo2 bo2 (y 0) (y 1)

theorem G_apply (i : Fin 512) (o : Fin 256) :
    G x adj W1 b1 W2 b2 Wo1 bo1 Wo2 bo2 (ix2 i o) = out x adj W1 b1 W2 b2 Wo1 bo1 Wo2 bo2 i o := rfl

end Cert.Spec

end
-- ==== Proof.Consts.lean ====
/-
  The float constants the two programs spell, as the extended reals their bit patterns denote: zero, the
  reference's divisor 512, and the kernel's scale 2⁻⁹ = 1/512 (an exact power of two, so the pattern denotes
  the rational itself).
-/
import Idealize.ShloMosaic.PureOps.Ideal

noncomputable section

namespace Cert.Consts

open Idealize.ShloMosaic

/-- The pattern of `+0.0` denotes `0`. -/
theorem ofBits_zero : Ideal.ofBits .f32 0x00000000#32 = 0 := by
  simp [Ideal.ofBits, Ideal.ieee]

/-- The pattern of `512.0` denotes the real `512`. -/
theorem ofBits_512 : Ideal.ofBits .f32 0x44000000#32 = ((512 : ℝ) : EReal) := by
  simp [Ideal.ofBits, Ideal.ieee, -EReal.coe_mul]; norm_num

/-- The pattern of `0.001953125` denotes the real `1/512`. -/
theorem ofBits_inv512 : Ideal.ofBits .f32 0x3B000000#32 = ((1 / 512 : ℝ) : EReal) := by
  simp [Ideal.ofBits, Ideal.ieee, -EReal.coe_mul]; norm_num

end Cert.Consts

end
-- ==== Proof.RefSpec.lean ====
/-
  The reference program's result, read one host operation at a time, is the specification `Spec.G` of the ten
  argument arrays: the two projections are the reference's two products against the transposed halves of W1, the
  broadcasts lay them over the (i, j) pairs, the mean over the neighbours is the host sum divided by 512 — the
  product with 1/512 on every extended real —, and the output network is two more products with their biases.
-/
import proofs.«108502_j1580547967222_1_alg».proof.Proof.Gen.ReferenceIdeal.Read
import proofs.«108502_j1580547967222_1_alg».proof.Proof.Spec
import proofs.«108502_j1580547967222_1_alg».proof.Proof.Consts

noncomputable section

namespace Cert.RefSpec

open Idealize.ShloMosaic Idealize.ShloMosaic.ValueIdx Cert.ReferenceIdeal Cert.ReferenceIdeal.Read

variable (x0 : (⟨S512x128, .f32⟩ : BufTy).Contents (Elt Ideal)) (x1 : (⟨S512x512, .f32⟩ : BufTy).Contents (Elt Ideal))
  (x2 : (⟨S256x256, .f32⟩ : BufTy).Contents (Elt Ideal)) (x3 : (⟨S256, .f32⟩ : BufTy).Contents (Elt Ideal))
  (x4 : (⟨S256x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal))

/-- The first product, against the transposed left half of W1, at (j, h) is the neighbour projection. -/
theorem pa_at (j : Fin 512) (h : Fin 256) :
    val_main_v3 (F := Ideal) x0 x2 (ix2 j h) = Cert.Spec.pa x0 x2 j h := by
  rw [val_main_v3_apply]
  unfold Cert.Spec.pa
  refine Finset.sum_congr rfl fun d _ => ?_
  rw [val_main_v2_apply, val_main_v0_apply]
  have e1 : lidx_main_v3 (ix2 j h) d = ix2 j d :=
    funext fun a => Fin.ext (by match a with | ⟨0, _⟩ => rfl | ⟨1, _⟩ => rfl)
  have e2 : idx_main_v0 (idx_main_v2 (ridx_main_v3 (ix2 j h) d)) = ix2 h (Cert.Spec.lo d) :=
    funext fun a => Fin.ext (by match a with | ⟨0, _⟩ => rfl | ⟨1, _⟩ => rfl)
  rw [e1, e2]

/-- The second product, against the transposed right half of W1, at (i, h) is the own projection. -/
theorem pb_at (i : Fin 512) (h : Fin 256) :
    val_main_v5 (F := Ideal) x0 x2 (ix2 i h) = Cert.Spec.pb x0 x2 i h := by
  rw [val_main_v5_apply]
  unfold Cert.Spec.pb
  refine Finset.sum_congr rfl fun d _ => ?_
  rw [val_main_v4_apply, val_main_v1_apply]
  have e1 : lidx_main_v5 (ix2 i h) d = ix2 i d :=
    funext fun a => Fin.ext (by match a with | ⟨0, _⟩ => rfl | ⟨1, _⟩ => rfl)
  have e2 : idx_main_v1 (idx_main_v4 (ridx_main_v5 (ix2 i h) d)) = ix2 h (Cert.Spec.hi d) :=
    funext fun a => Fin.ext (by match a with | ⟨0, _⟩ => rfl | ⟨1, _⟩ => rfl)
  rw [e1, e2]

/-- The rectified sum of the two broadcast projections and the bias at (i, j, h) is the hidden layer. -/
theorem hid_at (i j : Fin 512) (h : Fin 256) :
    val_main_v14 (F := Ideal) x0 x2 x3 (ix3 i j h) = Cert.Spec.hid x0 x2 x3 i j h := by
  rw [val_main_v14_apply, val_main_v13_apply, val_main_v10_apply, val_main_v8_apply, val_main_v6_apply,
    val_main_v9_apply, val_main_v7_apply, val_main_v12_apply, val_main_v11_apply, val_main_call0_v0_apply,
    val_main_call0_cst_apply]
  have e8 : idx_main_v6 (idx_main_v8 (ix3 i j h)) = ix2 j h :=
    funext fun a => Fin.ext (by match a with | ⟨0, _⟩ => rfl | ⟨1, _⟩ => rfl)
  have e9 : idx_main_v7 (idx_main_v9 (ix3 i j h)) = ix2 i h :=
    funext fun a => Fin.ext (by match a with | ⟨0, _⟩ => rfl | ⟨1, _⟩ => rfl)
  have e12 : idx_main_v11 (idx_main_v12 (ix3 i j h)) = ix1 h :=
    funext fun a => Fin.ext (by match a with | ⟨0, _⟩ => rfl)
  rw [e8, e9, e12, pa_at, pb_at, Ideal.maximumf_def, Ideal.addf_def, Ideal.addf_def, Ideal.ofBits_def,
    Cert.Consts.ofBits_zero]
  rfl

/-- The product of the hidden layer against W2, with the bias b2, at (i, j, k) is the edge network's output. -/
theorem edge_at (i j : Fin 512) (k : Fin 256) :
    val_main_v18 (F := Ideal) x0 x2 x3 x4 x5 (ix3 i j k) = Cert.Spec.edge x0 x2 x3 x4 x5 i j k := by
  rw [val_main_v18_apply, val_main_v15_apply, val_main_v17_apply, val_main_v16_apply]
  have e17 : idx_main_v16 (idx_main_v17 (ix3 i j k)) = ix1 k :=
    funext fun a => Fin.ext (by match a with | ⟨0, _⟩ => rfl)
  have hs : ∑ h : Fin 256, val_main_v14 (F := Ideal) x0 x2 x3 (lidx_main_v15 (ix3 i j k) h) * x4 (ridx_main_v15 (ix3 i j k) h)
      = ∑ h : Fin 256, Cert.Spec.hid x0 x2 x3 i j h * x4 (ix2 k h) := by
    refine Finset.sum_congr rfl fun h _ => ?_
    have el : lidx_main_v15 (ix3 i j k) h = ix3 i j h :=
      funext fun a => Fin.ext (by match a with | ⟨0, _⟩ => rfl | ⟨1, _⟩ => rfl | ⟨2, _⟩ => rfl)
    have er : ridx_main_v15 (ix3 i j k) h = ix2 k h :=
      funext fun a => Fin.ext (by match a with | ⟨0, _⟩ => rfl | ⟨1, _⟩ => rfl)
    rw [el, er, hid_at]
  rw [e17, hs, Ideal.addf_def]
  rfl

/-- The host sum over the neighbours of the adjacency times the edge output, from the initial value 0, is the
    adjacency-weighted sum. -/
theorem agg_at (i : Fin 512) (k : Fin 256) :
    val_main_v22 (F := Ideal) x0 x1 x2 x3 x4 x5 (ix2 i k) = Cert.Spec.agg x0 x1 x2 x3 x4 x5 i k := by
  rw [val_main_v22_apply, val_main_cst_apply, Ideal.ofBits_def, Cert.Consts.ofBits_zero, zero_add]
  unfold Cert.Spec.agg
  refine Finset.sum_congr rfl fun j _ => ?_
  have e : idx_main_v22 (ix2 i k) j = ix3 i j k :=
    funext fun a => Fin.ext (by match a with | ⟨0, _⟩ => rfl | ⟨1, _⟩ => rfl | ⟨2, _⟩ => rfl)
  have e20 : idx_main_v19 (idx_main_v20 (ix3 i j k)) = ix2 i j :=
    funext fun a => Fin.ext (by match a with | ⟨0, _⟩ => rfl | ⟨1, _⟩ => rfl)
  rw [e, val_main_v21_apply, val_main_v20_apply, val_main_v19_apply, e20, edge_at, Ideal.mulf_def]

/-- The quotient of the neighbour sum by the constant 512 is the product with 1/512: the mean. -/
theorem pred_at (i : Fin 512) (k : Fin 256) :
    val_main_v24 (F := Ideal) x0 x1 x2 x3 x4 x5 (ix2 i k) = Cert.Spec.pred x0 x1 x2 x3 x4 x5 i k := by
  rw [val_main_v24_apply, val_main_v23_apply, val_main_cst_0_apply, agg_at, Ideal.hostDivf_def, Ideal.ofBits_def,
    Cert.Consts.ofBits_512, Ideal.div_coe (by norm_num : (512 : ℝ) ≠ 0)]
  rfl

/-- The rectified product of the mean against the transposed Wo1, with the bias bo1, is the output network's hidden
    layer. -/
theorem h2_at (i : Fin 512) (l : Fin 256) :
    val_main_v30 (F := Ideal) x0 x1 x2 x3 x4 x5 x6 x7 (ix2 i l) = Cert.Spec.h2 x0 x1 x2 x3 x4 x5 x6 x7 i l := by
  rw [val_main_v30_apply, val_main_v29_apply, val_main_v26_apply, val_main_v28_apply, val_main_v27_apply,
    val_main_call1_v0_apply, val_main_call1_cst_apply]
  have e28 : idx_main_v27 (idx_main_v28 (ix2 i l)) = ix1 l :=
    funext fun a => Fin.ext (by match a with | ⟨0, _⟩ => rfl)
  have hs : ∑ k : Fin 256, val_main_v24 (F := Ideal) x0 x1 x2 x3 x4 x5 (lidx_main_v26 (ix2 i l) k)
        * val_main_v25 (F := Ideal) x6 (ridx_main_v26 (ix2 i l) k)
      = ∑ k : Fin 256, Cert.Spec.pred x0 x1 x2 x3 x4 x5 i k * x6 (ix2 l k) := by
    refine Finset.sum_congr rfl fun k _ => ?_
    have el : lidx_main_v26 (ix2 i l) k = ix2 i k :=
      funext fun a => Fin.ext (by match a with | ⟨0, _⟩ => rfl | ⟨1, _⟩ => rfl)
    have er : idx_main_v25 (ridx_main_v26 (ix2 i l) k) = ix2 l k :=
      funext fun a => Fin.ext (by match a with | ⟨0, _⟩ => rfl | ⟨1, _⟩ => rfl)
    rw [val_main_v25_apply, el, er, pred_at]
  rw [e28, hs, Ideal.maximumf_def, Ideal.addf_def, Ideal.ofBits_def, Cert.Consts.ofBits_zero]
  rfl

/-- The product of that hidden layer against the transposed Wo2, with the bias bo2, is the output. -/
theorem out_at (i : Fin 512) (o : Fin 256) :
    val_main_v35 (F := Ideal) x0 x1 x2 x3 x4 x5 x6 x7 x8 x9 (ix2 i o)
      = Cert.Spec.out x0 x1 x2 x3 x4 x5 x6 x7 x8 x9 i o := by
  rw [val_main_v35_apply, val_main_v32_apply, val_main_v34_apply, val_main_v33_apply]
  have e34 : idx_main_v33 (idx_main_v34 (ix2 i o)) = ix1 o :=
    funext fun a => Fin.ext (by match a with | ⟨0, _⟩ => rfl)
  have hs : ∑ l : Fin 256, val_main_v30 (F := Ideal) x0 x1 x2 x3 x4 x5 x6 x7 (lidx_main_v32 (ix2 i o) l)
        * val_main_v31 (F := Ideal) x8 (ridx_main_v32 (ix2 i o) l)
      = ∑ l : Fin 256, Cert.Spec.h2 x0 x1 x2 x3 x4 x5 x6 x7 i l * x8 (ix2 o l) := by
    refine Finset.sum_congr rfl fun l _ => ?_
    have el : lidx_main_v32 (ix2 i o) l = ix2 i l :=
      funext fun a => Fin.ext (by match a with | ⟨0, _⟩ => rfl | ⟨1, _⟩ => rfl)
    have er : idx_main_v31 (ridx_main_v32 (ix2 i o) l) = ix2 o l :=
      funext fun a => Fin.ext (by match a with | ⟨0, _⟩ => rfl | ⟨1, _⟩ => rfl)
    rw [val_main_v31_apply, el, er, h2_at]
  rw [e34, hs, Ideal.addf_def]
  rfl

/-- The reference's result term at `Ideal` is `Spec.G` of its ten arguments. -/
theorem ref_eq (x0 : (⟨S512x128, .f32⟩ : BufTy).Contents (Elt Ideal)) (x1 : (⟨S512x512, .f32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x256, .f32⟩ : BufTy).Contents (Elt Ideal)) (x9 : (⟨S256, .f32⟩ : BufTy).Contents (Elt Ideal)) :
    val_main_v35 (F := Ideal) x0 x1 x2 x3 x4 x5 x6 x7 x8 x9 = Cert.Spec.G x0 x1 x2 x3 x4 x5 x6 x7 x8 x9 := by
  funext y
  obtain ⟨p, q, rfl⟩ : ∃ (p : Fin 512) (q : Fin 256), y = ix2 p q := ⟨y 0, y 1, eq_ix2 y⟩
  rw [out_at, Cert.Spec.G_apply]

end Cert.RefSpec

end
-- ==== Proof.K.Runs.lean ====
/-
  What the case-by-case runs of the kernel body and the frame argument share: the arrays as the region finds them
  (after the six host operations that cut W1 into its halves and lay the four bias vectors out as rows), each
  window's block at a grid point, that an input window's staging buffer holds its block at every point whether
  or not the pipeline fetched it there, the two conditions of the body in closed form over the 8 × 4 grid (the
  accumulator is reset where the neighbour-block coordinate is 0, the output network runs and the output block is
  stored where it is 3), where the output window is idle, and the invariant with the accumulator as a memref.
-/
import proofs.«108502_j1580547967222_1_alg».proof.Proof.Gen.Kernel.Launch
import proofs.«108502_j1580547967222_1_alg».proof.Proof.Gen.Kernel.Skeleton
import proofs.«108502_j1580547967222_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, fetched there or not. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The accumulator is reset at this point: the neighbour-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The output network runs at this point: the neighbour-block coordinate is 3, the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
/-- Where the output network does not run the output window is idle and is not written back. -/
theorem idleAt0_12 : ∀ t : Fin cfg0.N, ¬cond0_1 (grid0.coords t) → cfg0.idle 12 (grid0.coords t) = true := by decide +kernel
theorem noFlush0_12 : ∀ t : Fin cfg0.N, ¬cond0_1 (grid0.coords t) → (cfg0.win 12).flush t = false := by decide +kernel
/-- Where it runs the output window is live. -/
theorem liveAt0_12 : ∀ t : Fin cfg0.N, cond0_1 (grid0.coords t) → cfg0.idle 12 (grid0.coords t) = false := by decide +kernel

/-! ## The staging memrefs at a point, and the accumulator -/

/-- One staging buffer of the output window, through which its contents are stated. -/
abbrev VO0_12 : View sig .tc .vmem S64x256 .f32 := (Memref.whole cc0_stg12_0 : Memref sig .tc .vmem S64x256 .f32).view
abbrev ms0_0 (t : Fin cfg0.N) : Memref sig .tc .vmem S64x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S64x256 .f32 := win0_12.stage (cfg0.slots t 12)
abbrev hs0_12 (t : Fin cfg0.N) : (ms0_12 t).IsWhole := hstage0_12 ((cfg0.slots t 12).cast nbuf0_12)
/-- The accumulator: a whole scratch buffer of the kernel's own, carried from point to point. -/
abbrev scM0_0 : Memref sig .tc .vmem S64x256 .f32 := Memref.whole cc0_scratch0
abbrev VS0_0 : View sig .tc .vmem S64x256 .f32 := scM0_0.view

/-- The region's plain invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.K.RunA.lean ====
/-
  The kernel body run symbolically at a grid point of case A (the accumulator is reset, then the point's partial sum is added; the output network does not run): on whole staging
  memrefs holding the input blocks, the body runs to its end, hands every input buffer back as it found it, and
  leaves in the accumulator the pieces its stores wrote — the witness the run finds.
-/
import proofs.«108502_j1580547967222_1_alg».proof.Proof.Gen.Kernel.Launch
import proofs.«108502_j1580547967222_1_alg».proof.Proof.Gen.Kernel.Skeleton
import proofs.«108502_j1580547967222_1_alg».proof.Proof.Gen.Kernel.Points
import proofs.«108502_j1580547967222_1_alg».proof.Proof.K.Runs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in case A, from the input blocks `x0 … x11`. -/
noncomputable def kernelRun0_A (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : cond0_0 i) (hc1 : ¬cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) :
    Σ' (L12 : List (View.Piece (Elt F) S64x256 .f32)), { LS0 : List (View.Piece (Elt F) S64x256 .f32) //
      ∀ (xi12 : Vec F S64x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ f, arg15.view.loc (c : Thread nD τ) ↦[arg15.view.set]{fullShare} arg15.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, fun xi12 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    iexists _; iexact HS0

end Cert.Kernel.Fr

end
-- ==== Proof.K.RunB.lean ====
/-
  The kernel body run symbolically at a grid point of case B (the point's partial sum is added to the accumulator; nothing else): on whole staging
  memrefs holding the input blocks, the body runs to its end, hands every input buffer back as it found it, and
  leaves in the accumulator the pieces its stores wrote — the witness the run finds.
-/
import proofs.«108502_j1580547967222_1_alg».proof.Proof.Gen.Kernel.Launch
import proofs.«108502_j1580547967222_1_alg».proof.Proof.Gen.Kernel.Skeleton
import proofs.«108502_j1580547967222_1_alg».proof.Proof.Gen.Kernel.Points
import proofs.«108502_j1580547967222_1_alg».proof.Proof.K.RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in case B, from the input blocks `x0 … x11` and the accumulator's contents `xs0`. -/
noncomputable def kernelRun0_B (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : ¬cond0_0 i) (hc1 : ¬cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (xs0 : Vec F S64x256 .f32) :
    Σ' (L12 : List (View.Piece (Elt F) S64x256 .f32)), { LS0 : List (View.Piece (Elt F) S64x256 .f32) //
      ∀ (xi12 : Vec F S64x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ f, arg15.view.loc (c : Thread nD τ) ↦[arg15.view.set]{fullShare} arg15.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, fun xi12 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    iexists _; iexact HS0

end Cert.Kernel.Fr

end
-- ==== Proof.K.RunC.lean ====
/-
  The kernel body run symbolically at a grid point of case C (the point's partial sum is added to the accumulator, then the output network runs on it and its result is stored into the output block): on whole staging
  memrefs holding the input blocks, the body runs to its end, hands every input buffer back as it found it, and
  leaves in the accumulator and in the output buffer the pieces its stores wrote — the witness the run finds.
-/
import proofs.«108502_j1580547967222_1_alg».proof.Proof.Gen.Kernel.Launch
import proofs.«108502_j1580547967222_1_alg».proof.Proof.Gen.Kernel.Skeleton
import proofs.«108502_j1580547967222_1_alg».proof.Proof.Gen.Kernel.Points
import proofs.«108502_j1580547967222_1_alg».proof.Proof.K.RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in case C, from the input blocks `x0 … x11` and the accumulator's contents `xs0`. -/
noncomputable def kernelRun0_C (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : ¬cond0_0 i) (hc1 : cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (xs0 : Vec F S64x256 .f32) :
    Σ' (L12 : List (View.Piece (Elt F) S64x256 .f32)), { LS0 : List (View.Piece (Elt F) S64x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    iexists _; iexact HS0

end Cert.Kernel.Fr

end
-- ==== Proof.K.Outs.lean ====
/-
  What each case of the kernel body leaves in the accumulator and in the output block (the pieces its stores wrote,
  read back), and from them, by recursion on the grid point, what the accumulator holds after each point — reset and
  first partial sum where the neighbour-block coordinate is 0, one more partial sum at each later point — and what
  the output block's buffer holds where the output network runs.
-/
import proofs.«108502_j1580547967222_1_alg».proof.Proof.Gen.Kernel.Launch
import proofs.«108502_j1580547967222_1_alg».proof.Proof.Gen.Kernel.Skeleton
import proofs.«108502_j1580547967222_1_alg».proof.Proof.Gen.Kernel.Points
import proofs.«108502_j1580547967222_1_alg».proof.Proof.K.RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A's pieces for the accumulator cover it. -/
theorem scover0_A_0 (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : cond0_0 i) (hc1 : ¬cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (y : S64x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11).2.1 S64x256.size (by sl_kernel_rfl) y

/-- What case A leaves in the accumulator: its pieces read back. -/
def sout0_A_0 (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : cond0_0 i) (hc1 : ¬cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) : Vec F S64x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11).2.1)

/-- Case B's pieces for the accumulator cover it. -/
theorem scover0_B_0 (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : ¬cond0_0 i) (hc1 : ¬cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (xs0 : Vec F S64x256 .f32) (y : S64x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1 S64x256.size (by sl_kernel_rfl) y

/-- What case B leaves in the accumulator: its pieces read back. -/
def sout0_B_0 (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : ¬cond0_0 i) (hc1 : ¬cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (xs0 : Vec F S64x256 .f32) : Vec F S64x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1)

/-- Case C's pieces for the accumulator cover it. -/
theorem scover0_C_0 (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : ¬cond0_0 i) (hc1 : cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (xs0 : Vec F S64x256 .f32) (y : S64x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1 S64x256.size (by sl_kernel_rfl) y

/-- What case C leaves in the accumulator: its pieces read back. -/
def sout0_C_0 (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : ¬cond0_0 i) (hc1 : cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (xs0 : Vec F S64x256 .f32) : Vec F S64x256 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1)

/-- Case C's pieces for the output block cover it. -/
theorem cover0_C_12 (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : ¬cond0_0 i) (hc1 : cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (xs0 : Vec F S64x256 .f32) (y : S64x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).1 S64x256.size (by sl_kernel_rfl) y

/-- What case C leaves in the output block's staging buffer: its pieces read back. -/
def out0_C_12 (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : ¬cond0_0 i) (hc1 : cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (xs0 : Vec F S64x256 .f32) : Vec F S64x256 .f32 :=
  VO0_12.read (Elt F) (VO0_12.writes (Elt F) VO0_12.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).1)

/-! ## The accumulator after each point -/

/-- The accumulator after the body at position `n`: at a point that resets it, the reset and first partial sum;
    at a later point, the case's result over what the point before left. -/
def scAt (c : Dev nD) : (n : ℕ) → n < cfg0.N → Vec F S64x256 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩)
  | n + 1, hn =>
    if h0 : (n + 1) % 4 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩)
    else
      if h1 : (n + 1) % 4 = 3 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (scAt c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (scAt c n (Nat.lt_of_succ_lt hn))

/-- At a resetting point. -/
theorem scAt_A (c : Dev nD) (t : Fin cfg0.N) (h0 : t.val % 4 = 0) (h1 : ¬t.val % 4 = 3) :
    scAt m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  obtain ⟨n, hn⟩ := t
  cases n with
  | zero => exact rfl
  | succ n => exact (dif_pos h0).trans rfl

/-- At a middle point: over what the point before left. -/
theorem scAt_B (c : Dev nD) (t : Fin cfg0.N) (h0 : ¬t.val % 4 = 0) (h1 : ¬t.val % 4 = 3) :
    scAt m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (scAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a last point of a row of blocks: over what the point before left. -/
theorem scAt_C (c : Dev nD) (t : Fin cfg0.N) (h0 : ¬t.val % 4 = 0) (h1 : t.val % 4 = 3) :
    scAt m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (scAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block's staging buffer after the body at point `t`: where the output network runs, its result on the
    accumulator's contents; elsewhere nothing is stored there and nothing consults this value. -/
def outAt (c : Dev nD) (t : Fin cfg0.N) : Vec F S64x256 .f32 :=
  if h1 : t.val % 4 = 3 then
    out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => (fun h => by (try dsimp only at h); omega) ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (scAt m c (t.val - 1) (Nat.lt_of_le_of_lt (Nat.sub_le _ _) t.isLt))
  else VO0_12.read (Elt F) VO0_12.junk

theorem outAt_C (c : Dev nD) (t : Fin cfg0.N) (h0 : ¬t.val % 4 = 0) (h1 : t.val % 4 = 3) :
    outAt m c t = out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (scAt m c (t.val - 1) (Nat.lt_of_le_of_lt (Nat.sub_le _ _) t.isLt)) := by
  unfold outAt; exact dif_pos h1

end Cert.Kernel.Fr

end
-- ==== Proof.K.Split.lean ====
/-
  The region-entry buffers behind the windows' arrays, each whole at the full share, give the proof data's arrays at
  entry. Windows 0 and 1 both read the array main_arg0: its full share is cut into its left and right halves, one
  for each window. The other eleven windows are on eleven distinct arrays, each held at the full share (the ten
  remaining inputs by the data's choice of share, the one output always).
-/
import proofs.«108502_j1580547967222_1_alg».proof.Proof.Gen.Kernel.Launch
import Idealize.ShloMosaic.Lib.Pipeline.Frame

set_option maxRecDepth 16384

noncomputable section

namespace Cert.Kernel.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.Kernel Cert.Kernel.Gen

variable {F : FTy → Type} [FloatOps F]

local notation "𝕄" => MT nD τ sig Unit (Elt F) ℕ (UR sig nD τ) ℕ

/-- The twelve distinct buffers behind the thirteen windows' arrays, conjoined one by one. -/
private theorem split_arrBufs (c : Dev nD) (V : (b : Ref sig .tc) → Buf (Elt F) ((c.tc : Thread nD τ).loc b)) :
    (Pipeline.arrBufs spec0 c V : sProp 𝕄)
      = iprop((((c.tc : Thread nD τ).loc main_arg0) ↦{fullShare} V main_arg0) ∗ (((c.tc : Thread nD τ).loc main_arg1) ↦{fullShare} V main_arg1)
        ∗ (((c.tc : Thread nD τ).loc main_v0) ↦{fullShare} V main_v0) ∗ (((c.tc : Thread nD τ).loc main_v1) ↦{fullShare} V main_v1)
        ∗ (((c.tc : Thread nD τ).loc main_v2) ↦{fullShare} V main_v2) ∗ (((c.tc : Thread nD τ).loc main_arg4) ↦{fullShare} V main_arg4)
        ∗ (((c.tc : Thread nD τ).loc main_v3) ↦{fullShare} V main_v3) ∗ (((c.tc : Thread nD τ).loc main_arg6) ↦{fullShare} V main_arg6)
        ∗ (((c.tc : Thread nD τ).loc main_v4) ↦{fullShare} V main_v4) ∗ (((c.tc : Thread nD τ).loc main_arg8) ↦{fullShare} V main_arg8)
        ∗ (((c.tc : Thread nD τ).loc main_v5) ↦{fullShare} V main_v5) ∗ (((c.tc : Thread nD τ).loc main_v6) ↦{fullShare} V main_v6)) := by
  unfold Pipeline.arrBufs
  exact bigSep_eq_bigSepL_of_eq [main_arg0, main_arg1, main_v0, main_v1, main_v2, main_arg4, main_v3, main_arg6, main_v4, main_arg8, main_v5, main_v6]
    (by decide) (by decide) _

/-- The proof data's arrays at entry from the buffers behind them: the array two windows read is split between them
    by share, every other array goes to its one window whole. -/
theorem arrays_of_arrBufs (c : Dev nD) (V : (b : Ref sig .tc) → Buf (Elt F) ((c.tc : Thread nD τ).loc b))
    (dat : Dat τ (Elt F) Unit ℕ (UR sig nD τ) ℕ cfg0 c)
    (hA : ∀ w, dat.A w = V (Pipeline.arrRef spec0 w))
    (hq0 : dat.q 0 = fullShare.left) (hq1 : dat.q 1 = fullShare.right)
    (hq : ∀ w : Fin 13, w ≠ 0 → w ≠ 1 → dat.q w = fullShare) :
    (Pipeline.arrBufs spec0 c V : sProp 𝕄) ⊢ dat.arrays (dat.arrAt · 0) := by
  have hs0 : dat.share 0 = fullShare.left := (if_neg (by decide)).trans hq0
  have hs1 : dat.share 1 = fullShare.right := (if_neg (by decide)).trans hq1
  have hs : ∀ w : Fin 13, w ≠ 0 → w ≠ 1 → dat.share w = fullShare := fun w h0 h1 => by
    unfold Dat.share; split
    · rfl
    · exact hq w h0 h1
  -- each window's array is a whole buffer, at entry at the contents `V` gives it
  have h1 : dat.arrays (dat.arrAt · 0)
      = bigSep Finset.univ fun w : Fin 13 => (((c.tc : Thread nD τ).loc (Pipeline.arrRef spec0 w)) ↦{dat.share w} V (Pipeline.arrRef spec0 w) : sProp 𝕄) := by
    unfold Dat.arrays
    exact bigSep_congr fun w _ => by
      rw [(arr_whole0 w).set_eq_univ]
      show (_ ↦{_} dat.A w : sProp 𝕄) = _
      rw [hA w]
  rw [h1, bigSep_W0]
  rw [split_arrBufs]
  rw [hs0, hs1, hs 2 (by decide) (by decide), hs 3 (by decide) (by decide), hs 4 (by decide) (by decide), hs 5 (by decide) (by decide),
    hs 6 (by decide) (by decide), hs 7 (by decide) (by decide), hs 8 (by decide) (by decide), hs 9 (by decide) (by decide),
    hs 10 (by decide) (by decide), hs 11 (by decide) (by decide), hs 12 (by decide) (by decide)]
  iintro ⟨H0, H2, H3, H4, H5, H6, H7, H8, H9, H10, H11, H12⟩
  -- the array two windows read: its full share is its left half and its right half
  ihave H0 := (pointsTo_share (PosShare.mem_left_op_right fullShare)).1 $$ H0
  icases H0 with ⟨H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.Kernel.Fr

end
-- ==== Proof.LibSharedFrame.lean ====
/-
  The frame run of a one-region pipeline kernel whose windows may SHARE ARRAYS (one array handed to the kernel
  through several input windows), with an invariant the certificate states point by point (what the body carries in
  scratch between grid points).

  The library's frame run with a tracking invariant asks that the windows' arrays be pairwise distinct and lends
  every array whole. Here the certificate instead says how the buffers behind the arrays, each whole at the
  region-entry contents, make the proof data's arrays at entry (`hsplit`): an array read through two input windows
  is split between them by share. Everything else is as in the library's run: the scoped rest and the generator
  register enter the invariant at point 0 and leave it after the last point, every unscoped buffer that is no
  window's array bypasses the region, and the conclusion reads each window's array at the library's `Dat.arrAt`.
-/
import Idealize.ShloMosaic.Lib.Pipeline.Frame

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run with a tracking invariant for a pipeline whose windows may share arrays: `hsplit` says how the
    whole buffers behind the arrays give the proof data's arrays at entry, each window at its share. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, ΦA (cfgs p).spec c ⊢ (dats p c).Φ 0)
    (hout : ∀ c, (dats p c).Φ (Fin.last (cfgs p).N) ⊢ ΦA (cfgs p).spec c) :
    θ_run (Pipeline.defs (fun q => Cfg.toPCfg (Val := Val) (cfgs q)) defs₀) (onTc main) (s₀ m g) (FramePost cfgs dats p V) := by
  classical
  exact θ_run_region_pf (fun q => (cfgs q).toPCfg (Val := Val)) (fun q => (cfgs q).toPCfg_adm) dats () hinj p hw
    (OwnSemFacts.none (cfgs p).spec) (PreFacts.none _) emb₁ defs₀ 𝒱₀ m g main hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (V c))
    (hX := fun c => by
      rw [show ((cfgs p).toPCfg (Val := Val)).pre = Prefetch.none from rfl, unscopedRestP_none]
      iintro ⟨HU, -, -, -, Hp, -⟩; imodintro
      isplitl [Hp]; · iexists _; iexact Hp
      iexact HU)
    (hin := fun c => (show _ ⊢ ΦA (cfgs p).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2.2⟩)

end Idealize.ShloMosaic.Pipeline

end
-- ==== Proof.K.Frame.lean ====
/-
  The frame argument of the kernel: the region invariant point by point (the accumulator at what the point before
  left), the pipeline's proof data (the two windows on x each holding a half share of it), the body obligation at a
  generic point by cases on the two conditions, and the run: every weakly fair execution terminates, nothing
  faults, every window's array ends at what the library computes from the proof data and every other argument
  array unchanged.
-/
import proofs.«108502_j1580547967222_1_alg».proof.Proof.Gen.Kernel.Launch
import proofs.«108502_j1580547967222_1_alg».proof.Proof.Gen.Kernel.Skeleton
import proofs.«108502_j1580547967222_1_alg».proof.Proof.Gen.Kernel.Points
import proofs.«108502_j1580547967222_1_alg».proof.Proof.K.Outs
import proofs.«108502_j1580547967222_1_alg».proof.Proof.K.Split
import proofs.«108502_j1580547967222_1_alg».proof.Proof.LibSharedFrame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n`: before the first point the plain one (the accumulator at anything);
    afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (scAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (scAt m c (n - 1) (by omega))) ∗ (∃ r, prngReg c r)) := by
  cases n with
  | zero => exact absurd rfl hz
  | succ n => rfl

/-! ## The pipeline's proof data -/

/-- The proof data: the arrays as the region finds them; after the body each input's buffer at its block and the
    output's at `outAt`; the invariant `PhiS`; the two windows on x each at a half share of it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 8000000 in
/-- The body at any point: the inputs' memrefs hold their blocks; the closed forms say which case the point is in;
    the run of that case applies; the invariant hands the body the accumulator at what the point before left (at
    anything before the first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  by_cases h0 : t.val % 4 = 0
  · have h1 : ¬t.val % 4 = 3 := by omega
    rw [Dat.leavesExact_idle (dats m 0 c) 12 t (idleAt0_12 t (fun h => h1 ((hcond0_1 t).mp h))) (noFlush0_12 t (fun h => h1 ((hcond0_1 t).mp h)))]
    rw [scAt_A m c t h0 h1]
    unfold sout0_A_0; (try dsimp only)
    by_cases hz : t.val = 0
    ·
      rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      iintro ⟨H0, H1, H2, H3, H4, H5, H6, H7, H8, H9, H10, H11, H12, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
    ·
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexists _; iexact HS0
      iintro ⟨H0, H1, H2, H3, H4, H5, H6, H7, H8, H9, H10, H11, H12, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
  · have hz : t.val ≠ 0 := fun h => h0 (by rw [h])
    by_cases h1 : t.val % 4 = 3
    · rw [show (dats m 0 c).leavesExact 12 t = owns (c : Thread nD τ) (ms0_12 t) fullShare ((dats m 0 c).after 12 t) from by
        unfold Dat.leavesExact; rw [liveAt0_12 t ((hcond0_1 t).mpr h1)], after0_12]
      rw [scAt_C m c t h0 h1, outAt_C m c t h0 h1]
      unfold out0_C_12 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_C c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      iintro ⟨H0, H1, H2, H3, H4, H5, H6, H7, H8, H9, H10, H11, ⟨%e12, H12⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _)
    · rw [Dat.leavesExact_idle (dats m 0 c) 12 t (idleAt0_12 t (fun h => h1 ((hcond0_1 t).mp h))) (noFlush0_12 t (fun h => h1 ((hcond0_1 t).mp h)))]
      rw [scAt_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      iintro ⟨H0, H1, H2, H3, H4, H5, H6, H7, H8, H9, H10, H11, H12, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the plain one back: the accumulator's contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-- The buffers behind the arrays, each whole, give the proof data's arrays: x is split between its two windows. -/
theorem hsplit (c : Dev nD) : (Pipeline.arrBufs spec0 c (V m c) : sProp 𝕄) ⊢ (dats m 0 c).arrays ((dats m 0 c).arrAt · 0) :=
  arrays_of_arrBufs c (V m c) (dats m 0 c) (A_eq m c) rfl rfl
    (fun w h0 h1 => by fin_cases w <;> first | exact absurd rfl h0 | exact absurd rfl h1 | rfl)

/-! ## The run and the frame -/

set_option backward.isDefEq.respectTransparency.types false in
/-- Every weakly fair execution of @main terminates, nothing faults, and in every final state each window's array
    holds what the library computes from the proof data and every other unscoped buffer what the region found. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := hin m) (hout := hout m)

/-- The ten argument arrays end unchanged: five are read through input windows, five bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    ((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 6).trans (((dats m 0 c).arrAt_in 6 rfl _).trans ((A_eq m c 6).trans (V_main_arg4 m c))),
    ((h c).2 main_arg5 (Pipeline.mem_restRefs_of main_arg5 (by decide) (by decide))).trans (V_main_arg5 m c),
    ((h c).1 8).trans (((dats m 0 c).arrAt_in 8 rfl _).trans ((A_eq m c 8).trans (V_main_arg6 m c))),
    ((h c).2 main_arg7 (Pipeline.mem_restRefs_of main_arg7 (by decide) (by decide))).trans (V_main_arg7 m c),
    ((h c).1 10).trans (((dats m 0 c).arrAt_in 10 rfl _).trans ((A_eq m c 10).trans (V_main_arg8 m c))),
    ((h c).2 main_arg9 (Pipeline.mem_restRefs_of main_arg9 (by decide) (by decide))).trans (V_main_arg9 m c)⟩) (run_main m ρ)

end Cert.Kernel.Fr

end
-- ==== Proof.KI.Runs.lean ====
/-
  What the case-by-case runs of the kernel body and the frame argument share: the arrays as the region finds them
  (after the six host operations that cut W1 into its halves and lay the four bias vectors out as rows), each
  window's block at a grid point, that an input window's staging buffer holds its block at every point whether
  or not the pipeline fetched it there, the two conditions of the body in closed form over the 8 × 4 grid (the
  accumulator is reset where the neighbour-block coordinate is 0, the output network runs and the output block is
  stored where it is 3), where the output window is idle, and the invariant with the accumulator as a memref.
-/
import proofs.«108502_j1580547967222_1_alg».proof.Proof.Gen.KernelIdeal.Launch
import proofs.«108502_j1580547967222_1_alg».proof.Proof.Gen.KernelIdeal.Skeleton
import proofs.«108502_j1580547967222_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, fetched there or not. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The accumulator is reset at this point: the neighbour-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The output network runs at this point: the neighbour-block coordinate is 3, the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
/-- Where the output network does not run the output window is idle and is not written back. -/
theorem idleAt0_12 : ∀ t : Fin cfg0.N, ¬cond0_1 (grid0.coords t) → cfg0.idle 12 (grid0.coords t) = true := by decide +kernel
theorem noFlush0_12 : ∀ t : Fin cfg0.N, ¬cond0_1 (grid0.coords t) → (cfg0.win 12).flush t = false := by decide +kernel
/-- Where it runs the output window is live. -/
theorem liveAt0_12 : ∀ t : Fin cfg0.N, cond0_1 (grid0.coords t) → cfg0.idle 12 (grid0.coords t) = false := by decide +kernel

/-! ## The staging memrefs at a point, and the accumulator -/

/-- One staging buffer of the output window, through which its contents are stated. -/
abbrev VO0_12 : View sig .tc .vmem S64x256 .f32 := (Memref.whole cc0_stg12_0 : Memref sig .tc .vmem S64x256 .f32).view
abbrev ms0_0 (t : Fin cfg0.N) : Memref sig .tc .vmem S64x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S64x256 .f32 := win0_12.stage (cfg0.slots t 12)
abbrev hs0_12 (t : Fin cfg0.N) : (ms0_12 t).IsWhole := hstage0_12 ((cfg0.slots t 12).cast nbuf0_12)
/-- The accumulator: a whole scratch buffer of the kernel's own, carried from point to point. -/
abbrev scM0_0 : Memref sig .tc .vmem S64x256 .f32 := Memref.whole cc0_scratch0
abbrev VS0_0 : View sig .tc .vmem S64x256 .f32 := scM0_0.view

/-- The region's plain invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
/-
  The kernel body run symbolically at a grid point of case A (the accumulator is reset, then the point's partial sum is added; the output network does not run): on whole staging
  memrefs holding the input blocks, the body runs to its end, hands every input buffer back as it found it, and
  leaves in the accumulator the pieces its stores wrote — the witness the run finds.
-/
import proofs.«108502_j1580547967222_1_alg».proof.Proof.Gen.KernelIdeal.Launch
import proofs.«108502_j1580547967222_1_alg».proof.Proof.Gen.KernelIdeal.Skeleton
import proofs.«108502_j1580547967222_1_alg».proof.Proof.Gen.KernelIdeal.Points
import proofs.«108502_j1580547967222_1_alg».proof.Proof.KI.Runs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in case A, from the input blocks `x0 … x11`. -/
noncomputable def kernelRun0_A (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : cond0_0 i) (hc1 : ¬cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) :
    Σ' (L12 : List (View.Piece (Elt F) S64x256 .f32)), { LS0 : List (View.Piece (Elt F) S64x256 .f32) //
      ∀ (xi12 : Vec F S64x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ f, arg15.view.loc (c : Thread nD τ) ↦[arg15.view.set]{fullShare} arg15.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, fun xi12 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    iexists _; iexact HS0

end Cert.KernelIdeal.Fr

end
-- ==== Proof.KI.RunB.lean ====
/-
  The kernel body run symbolically at a grid point of case B (the point's partial sum is added to the accumulator; nothing else): on whole staging
  memrefs holding the input blocks, the body runs to its end, hands every input buffer back as it found it, and
  leaves in the accumulator the pieces its stores wrote — the witness the run finds.
-/
import proofs.«108502_j1580547967222_1_alg».proof.Proof.Gen.KernelIdeal.Launch
import proofs.«108502_j1580547967222_1_alg».proof.Proof.Gen.KernelIdeal.Skeleton
import proofs.«108502_j1580547967222_1_alg».proof.Proof.Gen.KernelIdeal.Points
import proofs.«108502_j1580547967222_1_alg».proof.Proof.KI.RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in case B, from the input blocks `x0 … x11` and the accumulator's contents `xs0`. -/
noncomputable def kernelRun0_B (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : ¬cond0_0 i) (hc1 : ¬cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (xs0 : Vec F S64x256 .f32) :
    Σ' (L12 : List (View.Piece (Elt F) S64x256 .f32)), { LS0 : List (View.Piece (Elt F) S64x256 .f32) //
      ∀ (xi12 : Vec F S64x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ f, arg15.view.loc (c : Thread nD τ) ↦[arg15.view.set]{fullShare} arg15.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, fun xi12 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    iexists _; iexact HS0

end Cert.KernelIdeal.Fr

end
-- ==== Proof.KI.RunC.lean ====
/-
  The kernel body run symbolically at a grid point of case C (the point's partial sum is added to the accumulator, then the output network runs on it and its result is stored into the output block): on whole staging
  memrefs holding the input blocks, the body runs to its end, hands every input buffer back as it found it, and
  leaves in the accumulator and in the output buffer the pieces its stores wrote — the witness the run finds.
-/
import proofs.«108502_j1580547967222_1_alg».proof.Proof.Gen.KernelIdeal.Launch
import proofs.«108502_j1580547967222_1_alg».proof.Proof.Gen.KernelIdeal.Skeleton
import proofs.«108502_j1580547967222_1_alg».proof.Proof.Gen.KernelIdeal.Points
import proofs.«108502_j1580547967222_1_alg».proof.Proof.KI.RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in case C, from the input blocks `x0 … x11` and the accumulator's contents `xs0`. -/
noncomputable def kernelRun0_C (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : ¬cond0_0 i) (hc1 : cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (xs0 : Vec F S64x256 .f32) :
    Σ' (L12 : List (View.Piece (Elt F) S64x256 .f32)), { LS0 : List (View.Piece (Elt F) S64x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    iexists _; iexact HS0

end Cert.KernelIdeal.Fr

end
-- ==== Proof.KI.Outs.lean ====
/-
  What each case of the kernel body leaves in the accumulator and in the output block (the pieces its stores wrote,
  read back), and from them, by recursion on the grid point, what the accumulator holds after each point — reset and
  first partial sum where the neighbour-block coordinate is 0, one more partial sum at each later point — and what
  the output block's buffer holds where the output network runs.
-/
import proofs.«108502_j1580547967222_1_alg».proof.Proof.Gen.KernelIdeal.Launch
import proofs.«108502_j1580547967222_1_alg».proof.Proof.Gen.KernelIdeal.Skeleton
import proofs.«108502_j1580547967222_1_alg».proof.Proof.Gen.KernelIdeal.Points
import proofs.«108502_j1580547967222_1_alg».proof.Proof.KI.RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A's pieces for the accumulator cover it. -/
theorem scover0_A_0 (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : cond0_0 i) (hc1 : ¬cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (y : S64x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11).2.1 S64x256.size (by sl_kernel_rfl) y

/-- What case A leaves in the accumulator: its pieces read back. -/
def sout0_A_0 (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : cond0_0 i) (hc1 : ¬cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) : Vec F S64x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11).2.1)

/-- Case B's pieces for the accumulator cover it. -/
theorem scover0_B_0 (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : ¬cond0_0 i) (hc1 : ¬cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (xs0 : Vec F S64x256 .f32) (y : S64x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1 S64x256.size (by sl_kernel_rfl) y

/-- What case B leaves in the accumulator: its pieces read back. -/
def sout0_B_0 (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : ¬cond0_0 i) (hc1 : ¬cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (xs0 : Vec F S64x256 .f32) : Vec F S64x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1)

/-- Case C's pieces for the accumulator cover it. -/
theorem scover0_C_0 (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : ¬cond0_0 i) (hc1 : cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (xs0 : Vec F S64x256 .f32) (y : S64x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1 S64x256.size (by sl_kernel_rfl) y

/-- What case C leaves in the accumulator: its pieces read back. -/
def sout0_C_0 (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : ¬cond0_0 i) (hc1 : cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (xs0 : Vec F S64x256 .f32) : Vec F S64x256 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).2.1)

/-- Case C's pieces for the output block cover it. -/
theorem cover0_C_12 (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : ¬cond0_0 i) (hc1 : cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (xs0 : Vec F S64x256 .f32) (y : S64x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).1 S64x256.size (by sl_kernel_rfl) y

/-- What case C leaves in the output block's staging buffer: its pieces read back. -/
def out0_C_12 (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : ¬cond0_0 i) (hc1 : cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (xs0 : Vec F S64x256 .f32) : Vec F S64x256 .f32 :=
  VO0_12.read (Elt F) (VO0_12.writes (Elt F) VO0_12.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0).1)

/-! ## The accumulator after each point -/

/-- The accumulator after the body at position `n`: at a point that resets it, the reset and first partial sum;
    at a later point, the case's result over what the point before left. -/
def scAt (c : Dev nD) : (n : ℕ) → n < cfg0.N → Vec F S64x256 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩)
  | n + 1, hn =>
    if h0 : (n + 1) % 4 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩)
    else
      if h1 : (n + 1) % 4 = 3 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (scAt c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (scAt c n (Nat.lt_of_succ_lt hn))

/-- At a resetting point. -/
theorem scAt_A (c : Dev nD) (t : Fin cfg0.N) (h0 : t.val % 4 = 0) (h1 : ¬t.val % 4 = 3) :
    scAt m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  obtain ⟨n, hn⟩ := t
  cases n with
  | zero => exact rfl
  | succ n => exact (dif_pos h0).trans rfl

/-- At a middle point: over what the point before left. -/
theorem scAt_B (c : Dev nD) (t : Fin cfg0.N) (h0 : ¬t.val % 4 = 0) (h1 : ¬t.val % 4 = 3) :
    scAt m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (scAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a last point of a row of blocks: over what the point before left. -/
theorem scAt_C (c : Dev nD) (t : Fin cfg0.N) (h0 : ¬t.val % 4 = 0) (h1 : t.val % 4 = 3) :
    scAt m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (scAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block's staging buffer after the body at point `t`: where the output network runs, its result on the
    accumulator's contents; elsewhere nothing is stored there and nothing consults this value. -/
def outAt (c : Dev nD) (t : Fin cfg0.N) : Vec F S64x256 .f32 :=
  if h1 : t.val % 4 = 3 then
    out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => (fun h => by (try dsimp only at h); omega) ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (scAt m c (t.val - 1) (Nat.lt_of_le_of_lt (Nat.sub_le _ _) t.isLt))
  else VO0_12.read (Elt F) VO0_12.junk

theorem outAt_C (c : Dev nD) (t : Fin cfg0.N) (h0 : ¬t.val % 4 = 0) (h1 : t.val % 4 = 3) :
    outAt m c t = out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (scAt m c (t.val - 1) (Nat.lt_of_le_of_lt (Nat.sub_le _ _) t.isLt)) := by
  unfold outAt; exact dif_pos h1

end Cert.KernelIdeal.Fr

end
-- ==== Proof.KI.Split.lean ====
/-
  The region-entry buffers behind the windows' arrays, each whole at the full share, give the proof data's arrays at
  entry. Windows 0 and 1 both read the array main_arg0: its full share is cut into its left and right halves, one
  for each window. The other eleven windows are on eleven distinct arrays, each held at the full share (the ten
  remaining inputs by the data's choice of share, the one output always).
-/
import proofs.«108502_j1580547967222_1_alg».proof.Proof.Gen.KernelIdeal.Launch
import Idealize.ShloMosaic.Lib.Pipeline.Frame

set_option maxRecDepth 16384

noncomputable section

namespace Cert.KernelIdeal.Fr

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.KernelIdeal Cert.KernelIdeal.Gen

variable {F : FTy → Type} [FloatOps F]

local notation "𝕄" => MT nD τ sig Unit (Elt F) ℕ (UR sig nD τ) ℕ

/-- The twelve distinct buffers behind the thirteen windows' arrays, conjoined one by one. -/
private theorem split_arrBufs (c : Dev nD) (V : (b : Ref sig .tc) → Buf (Elt F) ((c.tc : Thread nD τ).loc b)) :
    (Pipeline.arrBufs spec0 c V : sProp 𝕄)
      = iprop((((c.tc : Thread nD τ).loc main_arg0) ↦{fullShare} V main_arg0) ∗ (((c.tc : Thread nD τ).loc main_arg1) ↦{fullShare} V main_arg1)
        ∗ (((c.tc : Thread nD τ).loc main_v0) ↦{fullShare} V main_v0) ∗ (((c.tc : Thread nD τ).loc main_v1) ↦{fullShare} V main_v1)
        ∗ (((c.tc : Thread nD τ).loc main_v2) ↦{fullShare} V main_v2) ∗ (((c.tc : Thread nD τ).loc main_arg4) ↦{fullShare} V main_arg4)
        ∗ (((c.tc : Thread nD τ).loc main_v3) ↦{fullShare} V main_v3) ∗ (((c.tc : Thread nD τ).loc main_arg6) ↦{fullShare} V main_arg6)
        ∗ (((c.tc : Thread nD τ).loc main_v4) ↦{fullShare} V main_v4) ∗ (((c.tc : Thread nD τ).loc main_arg8) ↦{fullShare} V main_arg8)
        ∗ (((c.tc : Thread nD τ).loc main_v5) ↦{fullShare} V main_v5) ∗ (((c.tc : Thread nD τ).loc main_v6) ↦{fullShare} V main_v6)) := by
  unfold Pipeline.arrBufs
  exact bigSep_eq_bigSepL_of_eq [main_arg0, main_arg1, main_v0, main_v1, main_v2, main_arg4, main_v3, main_arg6, main_v4, main_arg8, main_v5, main_v6]
    (by decide) (by decide) _

/-- The proof data's arrays at entry from the buffers behind them: the array two windows read is split between them
    by share, every other array goes to its one window whole. -/
theorem arrays_of_arrBufs (c : Dev nD) (V : (b : Ref sig .tc) → Buf (Elt F) ((c.tc : Thread nD τ).loc b))
    (dat : Dat τ (Elt F) Unit ℕ (UR sig nD τ) ℕ cfg0 c)
    (hA : ∀ w, dat.A w = V (Pipeline.arrRef spec0 w))
    (hq0 : dat.q 0 = fullShare.left) (hq1 : dat.q 1 = fullShare.right)
    (hq : ∀ w : Fin 13, w ≠ 0 → w ≠ 1 → dat.q w = fullShare) :
    (Pipeline.arrBufs spec0 c V : sProp 𝕄) ⊢ dat.arrays (dat.arrAt · 0) := by
  have hs0 : dat.share 0 = fullShare.left := (if_neg (by decide)).trans hq0
  have hs1 : dat.share 1 = fullShare.right := (if_neg (by decide)).trans hq1
  have hs : ∀ w : Fin 13, w ≠ 0 → w ≠ 1 → dat.share w = fullShare := fun w h0 h1 => by
    unfold Dat.share; split
    · rfl
    · exact hq w h0 h1
  -- each window's array is a whole buffer, at entry at the contents `V` gives it
  have h1 : dat.arrays (dat.arrAt · 0)
      = bigSep Finset.univ fun w : Fin 13 => (((c.tc : Thread nD τ).loc (Pipeline.arrRef spec0 w)) ↦{dat.share w} V (Pipeline.arrRef spec0 w) : sProp 𝕄) := by
    unfold Dat.arrays
    exact bigSep_congr fun w _ => by
      rw [(arr_whole0 w).set_eq_univ]
      show (_ ↦{_} dat.A w : sProp 𝕄) = _
      rw [hA w]
  rw [h1, bigSep_W0]
  rw [split_arrBufs]
  rw [hs0, hs1, hs 2 (by decide) (by decide), hs 3 (by decide) (by decide), hs 4 (by decide) (by decide), hs 5 (by decide) (by decide),
    hs 6 (by decide) (by decide), hs 7 (by decide) (by decide), hs 8 (by decide) (by decide), hs 9 (by decide) (by decide),
    hs 10 (by decide) (by decide), hs 11 (by decide) (by decide), hs 12 (by decide) (by decide)]
  iintro ⟨H0, H2, H3, H4, H5, H6, H7, H8, H9, H10, H11, H12⟩
  -- the array two windows read: its full share is its left half and its right half
  ihave H0 := (pointsTo_share (PosShare.mem_left_op_right fullShare)).1 $$ H0
  icases H0 with ⟨H0, H1⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.KernelIdeal.Fr

end
-- ==== Proof.KI.Frame.lean ====
/-
  The frame argument of the kernel: the region invariant point by point (the accumulator at what the point before
  left), the pipeline's proof data (the two windows on x each holding a half share of it), the body obligation at a
  generic point by cases on the two conditions, and the run: every weakly fair execution terminates, nothing
  faults, every window's array ends at what the library computes from the proof data and every other argument
  array unchanged.
-/
import proofs.«108502_j1580547967222_1_alg».proof.Proof.Gen.KernelIdeal.Launch
import proofs.«108502_j1580547967222_1_alg».proof.Proof.Gen.KernelIdeal.Skeleton
import proofs.«108502_j1580547967222_1_alg».proof.Proof.Gen.KernelIdeal.Points
import proofs.«108502_j1580547967222_1_alg».proof.Proof.KI.Outs
import proofs.«108502_j1580547967222_1_alg».proof.Proof.KI.Split
import proofs.«108502_j1580547967222_1_alg».proof.Proof.LibSharedFrame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n`: before the first point the plain one (the accumulator at anything);
    afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (scAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (scAt m c (n - 1) (by omega))) ∗ (∃ r, prngReg c r)) := by
  cases n with
  | zero => exact absurd rfl hz
  | succ n => rfl

/-! ## The pipeline's proof data -/

/-- The proof data: the arrays as the region finds them; after the body each input's buffer at its block and the
    output's at `outAt`; the invariant `PhiS`; the two windows on x each at a half share of it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 8000000 in
/-- The body at any point: the inputs' memrefs hold their blocks; the closed forms say which case the point is in;
    the run of that case applies; the invariant hands the body the accumulator at what the point before left (at
    anything before the first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  by_cases h0 : t.val % 4 = 0
  · have h1 : ¬t.val % 4 = 3 := by omega
    rw [Dat.leavesExact_idle (dats m 0 c) 12 t (idleAt0_12 t (fun h => h1 ((hcond0_1 t).mp h))) (noFlush0_12 t (fun h => h1 ((hcond0_1 t).mp h)))]
    rw [scAt_A m c t h0 h1]
    unfold sout0_A_0; (try dsimp only)
    by_cases hz : t.val = 0
    ·
      rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      iintro ⟨H0, H1, H2, H3, H4, H5, H6, H7, H8, H9, H10, H11, H12, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
    ·
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexists _; iexact HS0
      iintro ⟨H0, H1, H2, H3, H4, H5, H6, H7, H8, H9, H10, H11, H12, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
  · have hz : t.val ≠ 0 := fun h => h0 (by rw [h])
    by_cases h1 : t.val % 4 = 3
    · rw [show (dats m 0 c).leavesExact 12 t = owns (c : Thread nD τ) (ms0_12 t) fullShare ((dats m 0 c).after 12 t) from by
        unfold Dat.leavesExact; rw [liveAt0_12 t ((hcond0_1 t).mpr h1)], after0_12]
      rw [scAt_C m c t h0 h1, outAt_C m c t h0 h1]
      unfold out0_C_12 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_C c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      iintro ⟨H0, H1, H2, H3, H4, H5, H6, H7, H8, H9, H10, H11, ⟨%e12, H12⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _)
    · rw [Dat.leavesExact_idle (dats m 0 c) 12 t (idleAt0_12 t (fun h => h1 ((hcond0_1 t).mp h))) (noFlush0_12 t (fun h => h1 ((hcond0_1 t).mp h)))]
      rw [scAt_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      iintro ⟨H0, H1, H2, H3, H4, H5, H6, H7, H8, H9, H10, H11, H12, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the plain one back: the accumulator's contents forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-- The buffers behind the arrays, each whole, give the proof data's arrays: x is split between its two windows. -/
theorem hsplit (c : Dev nD) : (Pipeline.arrBufs spec0 c (V m c) : sProp 𝕄) ⊢ (dats m 0 c).arrays ((dats m 0 c).arrAt · 0) :=
  arrays_of_arrBufs c (V m c) (dats m 0 c) (A_eq m c) rfl rfl
    (fun w h0 h1 => by fin_cases w <;> first | exact absurd rfl h0 | exact absurd rfl h1 | rfl)

/-! ## The run and the frame -/

set_option backward.isDefEq.respectTransparency.types false in
/-- Every weakly fair execution of @main terminates, nothing faults, and in every final state each window's array
    holds what the library computes from the proof data and every other unscoped buffer what the region found. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := hin m) (hout := hout m)

/-- The ten argument arrays end unchanged: five are read through input windows, five bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    ((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 6).trans (((dats m 0 c).arrAt_in 6 rfl _).trans ((A_eq m c 6).trans (V_main_arg4 m c))),
    ((h c).2 main_arg5 (Pipeline.mem_restRefs_of main_arg5 (by decide) (by decide))).trans (V_main_arg5 m c),
    ((h c).1 8).trans (((dats m 0 c).arrAt_in 8 rfl _).trans ((A_eq m c 8).trans (V_main_arg6 m c))),
    ((h c).2 main_arg7 (Pipeline.mem_restRefs_of main_arg7 (by decide) (by decide))).trans (V_main_arg7 m c),
    ((h c).1 10).trans (((dats m 0 c).arrAt_in 10 rfl _).trans ((A_eq m c 10).trans (V_main_arg8 m c))),
    ((h c).2 main_arg9 (Pipeline.mem_restRefs_of main_arg9 (by decide) (by decide))).trans (V_main_arg9 m c)⟩) (run_main m ρ)

end Cert.KernelIdeal.Fr

end
-- ==== Proof.KI.Pieces.lean ====
/-
  What each case's stores leave, as the body's arithmetic of the blocks it loaded: the accumulator after a point is
  the partial-sum payload of the loaded blocks over what the accumulator held (over the reset value zero at a
  resetting point), and the output block is the output network's payload of the finished accumulator.
-/
import proofs.«108502_j1580547967222_1_alg».proof.Proof.Gen.KernelIdeal.Launch
import proofs.«108502_j1580547967222_1_alg».proof.Proof.Gen.KernelIdeal.Skeleton
import proofs.«108502_j1580547967222_1_alg».proof.Proof.Gen.KernelIdeal.Points
import proofs.«108502_j1580547967222_1_alg».proof.Proof.KI.Outs
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

private theorem piece_hz : (![0, 0] : Fin 2 → Nat) = fun _ => 0 :=
  funext fun a => by match a with | ⟨0, _⟩ => rfl | ⟨1, _⟩ => rfl

/-- A resetting point leaves the first partial sum over zero. -/
theorem sout0_A_eq (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : cond0_0 i) (hc1 : ¬cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11
      = k0_pay1 (k0_pay4 x7) (k0_pay5 x0 x1 x3 x4 x5 x6) x2 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11)]
  unfold kernelRun0_A
  dsimp only
  sl_unfold_words
  rw [View.canon_cons_unit_zero (S := S64x256) piece_hz, View.readCov_unit_zero (S := S64x256) _ piece_hz]
  simp only [View.readAt_eq_ld, harg2.read_unread, harg3.read_unread, harg4.read_unread, harg5.read_unread, harg6.read_unread, harg7.read_unread, harg8.read_unread, harg9.read_unread, View.ld_unit_zero (S := S64x128) piece_hz, View.ld_unit_zero (S := S128x128) piece_hz, View.ld_unit_zero (S := S256x128) piece_hz, View.ld_unit_zero (S := S1x256) piece_hz, View.ld_unit_zero (S := S256x256) piece_hz, View.ld_unit_zero (S := S64x256) piece_hz]

/-- A middle point adds its partial sum to what the accumulator held. -/
theorem sout0_B_eq (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : ¬cond0_0 i) (hc1 : ¬cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (xs0 : Vec F S64x256 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0
      = k0_pay1 (k0_pay4 x7) (k0_pay5 x0 x1 x3 x4 x5 x6) x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0)]
  unfold kernelRun0_B
  dsimp only
  sl_unfold_words
  rw [View.canon_unit_zero piece_hz]
  simp only [View.readAt_eq_ld, harg2.read_unread, harg3.read_unread, harg4.read_unread, harg5.read_unread, harg6.read_unread, harg7.read_unread, harg8.read_unread, harg9.read_unread, harg15.read_unread, View.ld_unit_zero (S := S64x128) piece_hz, View.ld_unit_zero (S := S128x128) piece_hz, View.ld_unit_zero (S := S256x128) piece_hz, View.ld_unit_zero (S := S1x256) piece_hz, View.ld_unit_zero (S := S256x256) piece_hz, View.ld_unit_zero (S := S64x256) piece_hz]

/-- So does the last point of a row of blocks. -/
theorem sout0_C_eq (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : ¬cond0_0 i) (hc1 : cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (xs0 : Vec F S64x256 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0
      = k0_pay1 (k0_pay4 x7) (k0_pay5 x0 x1 x3 x4 x5 x6) x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0)]
  unfold kernelRun0_C
  dsimp only
  sl_unfold_words
  rw [View.canon_unit_zero piece_hz]
  simp only [View.readAt_eq_ld, harg2.read_unread, harg3.read_unread, harg4.read_unread, harg5.read_unread, harg6.read_unread, harg7.read_unread, harg8.read_unread, harg9.read_unread, harg15.read_unread, View.ld_unit_zero (S := S64x128) piece_hz, View.ld_unit_zero (S := S128x128) piece_hz, View.ld_unit_zero (S := S256x128) piece_hz, View.ld_unit_zero (S := S1x256) piece_hz, View.ld_unit_zero (S := S256x256) piece_hz, View.ld_unit_zero (S := S64x256) piece_hz]

/-- And it stores the output network's result on the finished accumulator into the output block. -/
theorem out0_C_eq (c : Dev nD) (i : grid0.Coords) (arg2 : Memref sig .tc .vmem S64x128 .f32) (harg2 : arg2.IsWhole) (arg3 : Memref sig .tc .vmem S128x128 .f32) (harg3 : arg3.IsWhole) (arg4 : Memref sig .tc .vmem S64x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S64x256 .f32) (harg15 : arg15.IsWhole) (hc0 : ¬cond0_0 i) (hc1 : cond0_1 i)
    (x0 : Vec F S64x128 .f32) (x1 : Vec F S128x128 .f32) (x2 : Vec F S64x128 .f32) (x3 : Vec F S256x128 .f32) (x4 : Vec F S256x128 .f32) (x5 : Vec F S1x256 .f32) (x6 : Vec F S256x256 .f32) (x7 : Vec F S1x256 .f32) (x8 : Vec F S256x256 .f32) (x9 : Vec F S1x256 .f32) (x10 : Vec F S256x256 .f32) (x11 : Vec F S1x256 .f32) (xs0 : Vec F S64x256 .f32) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0
      = k0_pay2 (k0_pay1 (k0_pay4 x7) (k0_pay5 x0 x1 x3 x4 x5 x6) x2 xs0) x8 x9 x10 x11 := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 x11 xs0)]
  unfold kernelRun0_C
  dsimp only
  sl_unfold_words
  rw [View.canon_unit_zero piece_hz]
  simp only [View.readAt_eq_ld, View.readCov_unit_zero (S := S64x256) _ piece_hz, harg2.read_unread, harg3.read_unread, harg4.read_unread, harg5.read_unread, harg6.read_unread, harg7.read_unread, harg8.read_unread, harg9.read_unread, harg10.read_unread, harg11.read_unread, harg12.read_unread, harg13.read_unread, harg15.read_unread, View.ld_unit_zero (S := S64x128) piece_hz, View.ld_unit_zero (S := S128x128) piece_hz, View.ld_unit_zero (S := S256x128) piece_hz, View.ld_unit_zero (S := S1x256) piece_hz, View.ld_unit_zero (S := S256x256) piece_hz, View.ld_unit_zero (S := S64x256) piece_hz]

end Cert.KernelIdeal.Fr

end
-- ==== Proof.KI.Blocks.lean ====
/-
  The input windows' blocks at a grid point, read at an index off the ten argument arrays (at the extended reals).

  Point t of the 8 × 4 grid has row block t / 4 and neighbour block t % 4: the own rows are 64·(t / 4) + a, the
  neighbour rows 128·(t % 4) + b. The blocks of x and of the adjacency are rectangles of the arrays at those
  offsets; the nine constant windows are whole arrays: the two halves of W1 (cut by the host before the region),
  the four bias vectors laid out as rows, and W2, Wo1, Wo2 themselves.
-/
import proofs.«108502_j1580547967222_1_alg».proof.Proof.KI.Runs
import proofs.«108502_j1580547967222_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Fr

variable (m : (ℓ : Loc nD τ sig) → Buf (Elt Ideal) ℓ)

/-- The ten argument arrays on core `c`, as functions of an index. -/
abbrev aX (c : Dev nD) : S512x128.Idx → EReal := m ((c.tc : Thread nD τ).loc main_arg0)
abbrev aAdj (c : Dev nD) : S512x512.Idx → EReal := m ((c.tc : Thread nD τ).loc main_arg1)
abbrev aW1 (c : Dev nD) : S256x256.Idx → EReal := m ((c.tc : Thread nD τ).loc main_arg2)
abbrev aB1 (c : Dev nD) : S256.Idx → EReal := m ((c.tc : Thread nD τ).loc main_arg3)
abbrev aW2 (c : Dev nD) : S256x256.Idx → EReal := m ((c.tc : Thread nD τ).loc main_arg4)
abbrev aB2 (c : Dev nD) : S256.Idx → EReal := m ((c.tc : Thread nD τ).loc main_arg5)
abbrev aWo1 (c : Dev nD) : S256x256.Idx → EReal := m ((c.tc : Thread nD τ).loc main_arg6)
abbrev aBo1 (c : Dev nD) : S256.Idx → EReal := m ((c.tc : Thread nD τ).loc main_arg7)
abbrev aWo2 (c : Dev nD) : S256x256.Idx → EReal := m ((c.tc : Thread nD τ).loc main_arg8)
abbrev aBo2 (c : Dev nD) : S256.Idx → EReal := m ((c.tc : Thread nD τ).loc main_arg9)

/-- The own row `a` of point `t`'s row block, as a row of the arrays. -/
abbrev own (t : Fin cfg0.N) (a : Fin 64) : Fin 512 :=
  ⟨64 * (t.val / 4) + a.val, by have := lt_of_lt_of_eq t.isLt (show cfg0.N = 32 from N_0); omega⟩
/-- The neighbour row `b` of point `t`'s neighbour block, as a row of the arrays. -/
abbrev nbr (t : Fin cfg0.N) (b : Fin 128) : Fin 512 := ⟨128 * (t.val % 4) + b.val, by omega⟩

/-- Each input window's block at a point, at its literal type. -/
abbrev blk0 (c : Dev nD) (t : Fin cfg0.N) : Vec Ideal S64x128 .f32 := iblk m c 0 t
abbrev blk1 (c : Dev nD) (t : Fin cfg0.N) : Vec Ideal S128x128 .f32 := iblk m c 1 t
abbrev blk2 (c : Dev nD) (t : Fin cfg0.N) : Vec Ideal S64x128 .f32 := iblk m c 2 t
abbrev blk3 (c : Dev nD) (t : Fin cfg0.N) : Vec Ideal S256x128 .f32 := iblk m c 3 t
abbrev blk4 (c : Dev nD) (t : Fin cfg0.N) : Vec Ideal S256x128 .f32 := iblk m c 4 t
abbrev blk5 (c : Dev nD) (t : Fin cfg0.N) : Vec Ideal S1x256 .f32 := iblk m c 5 t
abbrev blk6 (c : Dev nD) (t : Fin cfg0.N) : Vec Ideal S256x256 .f32 := iblk m c 6 t
abbrev blk7 (c : Dev nD) (t : Fin cfg0.N) : Vec Ideal S1x256 .f32 := iblk m c 7 t
abbrev blk8 (c : Dev nD) (t : Fin cfg0.N) : Vec Ideal S256x256 .f32 := iblk m c 8 t
abbrev blk9 (c : Dev nD) (t : Fin cfg0.N) : Vec Ideal S1x256 .f32 := iblk m c 9 t
abbrev blk10 (c : Dev nD) (t : Fin cfg0.N) : Vec Ideal S256x256 .f32 := iblk m c 10 t
abbrev blk11 (c : Dev nD) (t : Fin cfg0.N) : Vec Ideal S1x256 .f32 := iblk m c 11 t

/-- The index maps of the three moving windows, decided once over the grid: point t has row block t / 4 and
    neighbour block t % 4. -/
private theorem blk_idx_moving : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = t.val % 4 :=
  (by decide +kernel : ∀ t : Fin grid0.N, _)

/-- The nine constant windows sit at block (0, 0) at every point. -/
private theorem blk_idx_3 : ∀ t : Fin cfg0.N, win0_3.index t (0 : Fin 2) = 0 ∧ win0_3.index t (1 : Fin 2) = 0 :=
  (by decide +kernel : ∀ t : Fin grid0.N, _)
private theorem blk_idx_4 : ∀ t : Fin cfg0.N, win0_4.index t (0 : Fin 2) = 0 ∧ win0_4.index t (1 : Fin 2) = 0 :=
  (by decide +kernel : ∀ t : Fin grid0.N, _)
private theorem blk_idx_5 : ∀ t : Fin cfg0.N, win0_5.index t (0 : Fin 2) = 0 ∧ win0_5.index t (1 : Fin 2) = 0 :=
  (by decide +kernel : ∀ t : Fin grid0.N, _)
private theorem blk_idx_6 : ∀ t : Fin cfg0.N, win0_6.index t (0 : Fin 2) = 0 ∧ win0_6.index t (1 : Fin 2) = 0 :=
  (by decide +kernel : ∀ t : Fin grid0.N, _)
private theorem blk_idx_7 : ∀ t : Fin cfg0.N, win0_7.index t (0 : Fin 2) = 0 ∧ win0_7.index t (1 : Fin 2) = 0 :=
  (by decide +kernel : ∀ t : Fin grid0.N, _)
private theorem blk_idx_8 : ∀ t : Fin cfg0.N, win0_8.index t (0 : Fin 2) = 0 ∧ win0_8.index t (1 : Fin 2) = 0 :=
  (by decide +kernel : ∀ t : Fin grid0.N, _)
private theorem blk_idx_9 : ∀ t : Fin cfg0.N, win0_9.index t (0 : Fin 2) = 0 ∧ win0_9.index t (1 : Fin 2) = 0 :=
  (by decide +kernel : ∀ t : Fin grid0.N, _)
private theorem blk_idx_10 : ∀ t : Fin cfg0.N, win0_10.index t (0 : Fin 2) = 0 ∧ win0_10.index t (1 : Fin 2) = 0 :=
  (by decide +kernel : ∀ t : Fin grid0.N, _)
private theorem blk_idx_11 : ∀ t : Fin cfg0.N, win0_11.index t (0 : Fin 2) = 0 ∧ win0_11.index t (1 : Fin 2) = 0 :=
  (by decide +kernel : ∀ t : Fin grid0.N, _)

theorem blk0_apply (c : Dev nD) (t : Fin cfg0.N) (a : Fin 64) (d : Fin 128) :
    blk0 m c t (ix2 a d) = aX m c (ix2 (own t a) d) := by
  obtain ⟨e0, e1, -⟩ := blk_idx_moving t
  show (iblk m c 0 t : Vec Ideal S64x128 .f32) (ix2 a d) = _
  unfold iblk
  rw [View.read_apply]
  show V m c main_arg0 _ = m ((c.tc : Thread nD τ).loc main_arg0) _
  refine (congrFun (V_main_arg0 m c) _).trans (congrArg (m ((c.tc : Thread nD τ).loc main_arg0) : S512x128.Idx → EReal) ?_)
  funext x; apply Fin.ext
  match x with
  | ⟨0, _⟩ => show win0_0.index t (0 : Fin 2) * 64 + 1 * a.val = 64 * (t.val / 4) + a.val; rw [e0]; omega
  | ⟨1, _⟩ => show win0_0.index t (1 : Fin 2) * 128 + 1 * d.val = d.val; rw [e1]; omega

theorem blk1_apply (c : Dev nD) (t : Fin cfg0.N) (b : Fin 128) (d : Fin 128) :
    blk1 m c t (ix2 b d) = aX m c (ix2 (nbr t b) d) := by
  obtain ⟨-, -, e0, e1, -⟩ := blk_idx_moving t
  show (iblk m c 1 t : Vec Ideal S128x128 .f32) (ix2 b d) = _
  unfold iblk
  rw [View.read_apply]
  show V m c main_arg0 _ = m ((c.tc : Thread nD τ).loc main_arg0) _
  refine (congrFun (V_main_arg0 m c) _).trans (congrArg (m ((c.tc : Thread nD τ).loc main_arg0) : S512x128.Idx → EReal) ?_)
  funext x; apply Fin.ext
  match x with
  | ⟨0, _⟩ => show win0_1.index t (0 : Fin 2) * 128 + 1 * b.val = 128 * (t.val % 4) + b.val; rw [e0]; omega
  | ⟨1, _⟩ => show win0_1.index t (1 : Fin 2) * 128 + 1 * d.val = d.val; rw [e1]; omega

theorem blk2_apply (c : Dev nD) (t : Fin cfg0.N) (a : Fin 64) (b : Fin 128) :
    blk2 m c t (ix2 a b) = aAdj m c (ix2 (own t a) (nbr t b)) := by
  obtain ⟨-, -, -, -, e0, e1⟩ := blk_idx_moving t
  show (iblk m c 2 t : Vec Ideal S64x128 .f32) (ix2 a b) = _
  unfold iblk
  rw [View.read_apply]
  show V m c main_arg1 _ = m ((c.tc : Thread nD τ).loc main_arg1) _
  refine (congrFun (V_main_arg1 m c) _).trans (congrArg (m ((c.tc : Thread nD τ).loc main_arg1) : S512x512.Idx → EReal) ?_)
  funext x; apply Fin.ext
  match x with
  | ⟨0, _⟩ => show win0_2.index t (0 : Fin 2) * 64 + 1 * a.val = 64 * (t.val / 4) + a.val; rw [e0]; omega
  | ⟨1, _⟩ => show win0_2.index t (1 : Fin 2) * 128 + 1 * b.val = 128 * (t.val % 4) + b.val; rw [e1]; omega

theorem blk3_apply (c : Dev nD) (t : Fin cfg0.N) (h : Fin 256) (d : Fin 128) :
    blk3 m c t (ix2 h d) = aW1 m c (ix2 h (Cert.Spec.lo d)) := by
  obtain ⟨e0, e1⟩ := blk_idx_3 t
  have e : (V m c main_v0 : S256x128.Idx → EReal) = extractStridedSlice S256x128 ![0, 0] (aW1 m c) slices_S256x256_S256x128_0_0 := by
    dsimp only [V, hostOps0]; after_results
  show (iblk m c 3 t : Vec Ideal S256x128 .f32) (ix2 h d) = _
  unfold iblk
  rw [View.read_apply]
  show (V m c main_v0 : S256x128.Idx → EReal) _ = _
  rw [e]
  refine extractStridedSlice_apply ![0, 0] (aW1 m c) slices_S256x256_S256x128_0_0 _ (ix2 h (Cert.Spec.lo d)) (fun x => ?_)
  match x with
  | ⟨0, _⟩ => show h.val = 0 + (win0_3.index t (0 : Fin 2) * 256 + 1 * h.val); rw [e0]; omega
  | ⟨1, _⟩ => show d.val = 0 + (win0_3.index t (1 : Fin 2) * 128 + 1 * d.val); rw [e1]; omega

theorem blk4_apply (c : Dev nD) (t : Fin cfg0.N) (h : Fin 256) (d : Fin 128) :
    blk4 m c t (ix2 h d) = aW1 m c (ix2 h (Cert.Spec.hi d)) := by
  obtain ⟨e0, e1⟩ := blk_idx_4 t
  have e : (V m c main_v1 : S256x128.Idx → EReal) = extractStridedSlice S256x128 ![0, 128] (aW1 m c) slices_S256x256_S256x128_0_128 := by
    dsimp only [V, hostOps0]; after_results
  show (iblk m c 4 t : Vec Ideal S256x128 .f32) (ix2 h d) = _
  unfold iblk
  rw [View.read_apply]
  show (V m c main_v1 : S256x128.Idx → EReal) _ = _
  rw [e]
  refine extractStridedSlice_apply ![0, 128] (aW1 m c) slices_S256x256_S256x128_0_128 _ (ix2 h (Cert.Spec.hi d)) (fun x => ?_)
  match x with
  | ⟨0, _⟩ => show h.val = 0 + (win0_4.index t (0 : Fin 2) * 256 + 1 * h.val); rw [e0]; omega
  | ⟨1, _⟩ => show 128 + d.val = 128 + (win0_4.index t (1 : Fin 2) * 128 + 1 * d.val); rw [e1]; omega

theorem blk5_apply (c : Dev nD) (t : Fin cfg0.N) (h : Fin 256) :
    blk5 m c t (ix2 (0 : Fin 1) h) = aB1 m c (ix1 h) := by
  obtain ⟨e0, e1⟩ := blk_idx_5 t
  have e : (V m c main_v2 : S1x256.Idx → EReal) = shapeCast S1x256 (aB1 m c) shapeCasts_S256_S1x256 := by
    dsimp only [V, hostOps0]; after_results; rfl
  show (iblk m c 5 t : Vec Ideal S1x256 .f32) (ix2 (0 : Fin 1) h) = _
  unfold iblk
  rw [View.read_apply]
  show (V m c main_v2 : S1x256.Idx → EReal) _ = _
  rw [e]
  refine shapeCast_apply (aB1 m c) shapeCasts_S256_S1x256 _ (ix1 h) ?_
  rw [Shape.rowMajor_val_two, Shape.rowMajor_val_one]
  show h.val = (win0_5.index t (0 : Fin 2) * 1 + 1 * (0 : Fin 1).val) * 256 + (win0_5.index t (1 : Fin 2) * 256 + 1 * h.val)
  rw [e0, e1]; simp

theorem blk6_apply (c : Dev nD) (t : Fin cfg0.N) (k h : Fin 256) :
    blk6 m c t (ix2 k h) = aW2 m c (ix2 k h) := by
  obtain ⟨e0, e1⟩ := blk_idx_6 t
  show (iblk m c 6 t : Vec Ideal S256x256 .f32) (ix2 k h) = _
  unfold iblk
  rw [View.read_apply]
  show V m c main_arg4 _ = m ((c.tc : Thread nD τ).loc main_arg4) _
  refine (congrFun (V_main_arg4 m c) _).trans (congrArg (m ((c.tc : Thread nD τ).loc main_arg4) : S256x256.Idx → EReal) ?_)
  funext x; apply Fin.ext
  match x with
  | ⟨0, _⟩ => show win0_6.index t (0 : Fin 2) * 256 + 1 * k.val = k.val; rw [e0]; omega
  | ⟨1, _⟩ => show win0_6.index t (1 : Fin 2) * 256 + 1 * h.val = h.val; rw [e1]; omega

theorem blk7_apply (c : Dev nD) (t : Fin cfg0.N) (k : Fin 256) :
    blk7 m c t (ix2 (0 : Fin 1) k) = aB2 m c (ix1 k) := by
  obtain ⟨e0, e1⟩ := blk_idx_7 t
  have e : (V m c main_v3 : S1x256.Idx → EReal) = shapeCast S1x256 (aB2 m c) shapeCasts_S256_S1x256 := by
    dsimp only [V, hostOps0]; after_results; rfl
  show (iblk m c 7 t : Vec Ideal S1x256 .f32) (ix2 (0 : Fin 1) k) = _
  unfold iblk
  rw [View.read_apply]
  show (V m c main_v3 : S1x256.Idx → EReal) _ = _
  rw [e]
  refine shapeCast_apply (aB2 m c) shapeCasts_S256_S1x256 _ (ix1 k) ?_
  rw [Shape.rowMajor_val_two, Shape.rowMajor_val_one]
  show k.val = (win0_7.index t (0 : Fin 2) * 1 + 1 * (0 : Fin 1).val) * 256 + (win0_7.index t (1 : Fin 2) * 256 + 1 * k.val)
  rw [e0, e1]; simp

theorem blk8_apply (c : Dev nD) (t : Fin cfg0.N) (l k : Fin 256) :
    blk8 m c t (ix2 l k) = aWo1 m c (ix2 l k) := by
  obtain ⟨e0, e1⟩ := blk_idx_8 t
  show (iblk m c 8 t : Vec Ideal S256x256 .f32) (ix2 l k) = _
  unfold iblk
  rw [View.read_apply]
  show V m c main_arg6 _ = m ((c.tc : Thread nD τ).loc main_arg6) _
  refine (congrFun (V_main_arg6 m c) _).trans (congrArg (m ((c.tc : Thread nD τ).loc main_arg6) : S256x256.Idx → EReal) ?_)
  funext x; apply Fin.ext
  match x with
  | ⟨0, _⟩ => show win0_8.index t (0 : Fin 2) * 256 + 1 * l.val = l.val; rw [e0]; omega
  | ⟨1, _⟩ => show win0_8.index t (1 : Fin 2) * 256 + 1 * k.val = k.val; rw [e1]; omega

theorem blk9_apply (c : Dev nD) (t : Fin cfg0.N) (l : Fin 256) :
    blk9 m c t (ix2 (0 : Fin 1) l) = aBo1 m c (ix1 l) := by
  obtain ⟨e0, e1⟩ := blk_idx_9 t
  have e : (V m c main_v4 : S1x256.Idx → EReal) = shapeCast S1x256 (aBo1 m c) shapeCasts_S256_S1x256 := by
    dsimp only [V, hostOps0]; after_results; rfl
  show (iblk m c 9 t : Vec Ideal S1x256 .f32) (ix2 (0 : Fin 1) l) = _
  unfold iblk
  rw [View.read_apply]
  show (V m c main_v4 : S1x256.Idx → EReal) _ = _
  rw [e]
  refine shapeCast_apply (aBo1 m c) shapeCasts_S256_S1x256 _ (ix1 l) ?_
  rw [Shape.rowMajor_val_two, Shape.rowMajor_val_one]
  show l.val = (win0_9.index t (0 : Fin 2) * 1 + 1 * (0 : Fin 1).val) * 256 + (win0_9.index t (1 : Fin 2) * 256 + 1 * l.val)
  rw [e0, e1]; simp

theorem blk10_apply (c : Dev nD) (t : Fin cfg0.N) (o l : Fin 256) :
    blk10 m c t (ix2 o l) = aWo2 m c (ix2 o l) := by
  obtain ⟨e0, e1⟩ := blk_idx_10 t
  show (iblk m c 10 t : Vec Ideal S256x256 .f32) (ix2 o l) = _
  unfold iblk
  rw [View.read_apply]
  show V m c main_arg8 _ = m ((c.tc : Thread nD τ).loc main_arg8) _
  refine (congrFun (V_main_arg8 m c) _).trans (congrArg (m ((c.tc : Thread nD τ).loc main_arg8) : S256x256.Idx → EReal) ?_)
  funext x; apply Fin.ext
  match x with
  | ⟨0, _⟩ => show win0_10.index t (0 : Fin 2) * 256 + 1 * o.val = o.val; rw [e0]; omega
  | ⟨1, _⟩ => show win0_10.index t (1 : Fin 2) * 256 + 1 * l.val = l.val; rw [e1]; omega

theorem blk11_apply (c : Dev nD) (t : Fin cfg0.N) (o : Fin 256) :
    blk11 m c t (ix2 (0 : Fin 1) o) = aBo2 m c (ix1 o) := by
  obtain ⟨e0, e1⟩ := blk_idx_11 t
  have e : (V m c main_v5 : S1x256.Idx → EReal) = shapeCast S1x256 (aBo2 m c) shapeCasts_S256_S1x256 := by
    dsimp only [V, hostOps0]; after_results; rfl
  show (iblk m c 11 t : Vec Ideal S1x256 .f32) (ix2 (0 : Fin 1) o) = _
  unfold iblk
  rw [View.read_apply]
  show (V m c main_v5 : S1x256.Idx → EReal) _ = _
  rw [e]
  refine shapeCast_apply (aBo2 m c) shapeCasts_S256_S1x256 _ (ix1 o) ?_
  rw [Shape.rowMajor_val_two, Shape.rowMajor_val_one]
  show o.val = (win0_11.index t (0 : Fin 2) * 1 + 1 * (0 : Fin 1).val) * 256 + (win0_11.index t (1 : Fin 2) * 256 + 1 * o.val)
  rw [e0, e1]; simp

end Cert.KernelIdeal.Val

end
-- ==== Proof.KI.Pay.lean ====
/-
  The kernel body's arithmetic at one grid point, read at an index over the extended reals.

  At a point the body holds a block xi of 64 own rows and a block xj of 128 neighbour rows of x, the two halves
  Wa, Wb of W1, the bias rows, W2, and the adjacency block. Its matrix products into a zero accumulator are plain
  sums over the contracted index; the (own row, neighbour row) pairs of the block are laid out row-major on one
  axis of 64·128 rows, pair (a, b) at row 128·a + b; the changes of float format are the identity.
-/
import proofs.«108502_j1580547967222_1_alg».proof.Proof.Gen.KernelIdeal.Skeleton
import proofs.«108502_j1580547967222_1_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-! ### The product `[128,128] × [128,256]` into a zero accumulator, read at an index -/

theorem lhs_nbr_0 (i : S128x256.Idx) (q : dot_S128x128_S128x256_S128x256_1_0_0_1_n_n.contr.Idx) :
    (dot_S128x128_S128x256_S128x256_1_0_0_1_n_n.lhsIdx i q 0).val = (i 0).val := by
  unfold DotDims.lhsIdx
  rw [dif_neg (show ¬(0 : Fin S128x128.rank) ∈ dot_S128x128_S128x256_S128x256_1_0_0_1_n_n.lhsBatch by decide), dif_pos (show (0 : Fin S128x128.rank) ∈ dot_S128x128_S128x256_S128x256_1_0_0_1_n_n.lhsNonContracting by decide)]
  rfl
theorem lhs_nbr_1 (i : S128x256.Idx) (q : dot_S128x128_S128x256_S128x256_1_0_0_1_n_n.contr.Idx) :
    (dot_S128x128_S128x256_S128x256_1_0_0_1_n_n.lhsIdx i q 1).val = (q ⟨0, by decide⟩).val :=
  dot_S128x128_S128x256_S128x256_1_0_0_1_n_n.lhsIdx_val_of_single rfl i q
theorem rhs_nbr_0 (i : S128x256.Idx) (q : dot_S128x128_S128x256_S128x256_1_0_0_1_n_n.contr.Idx) :
    (dot_S128x128_S128x256_S128x256_1_0_0_1_n_n.rhsIdx i q 0).val = (q ⟨0, by decide⟩).val :=
  dot_S128x128_S128x256_S128x256_1_0_0_1_n_n.rhsIdx_val_of_single rfl i q
theorem rhs_nbr_1 (i : S128x256.Idx) (q : dot_S128x128_S128x256_S128x256_1_0_0_1_n_n.contr.Idx) :
    (dot_S128x128_S128x256_S128x256_1_0_0_1_n_n.rhsIdx i q 1).val = (i 1).val := by
  unfold DotDims.rhsIdx
  rw [dif_neg (show ¬(1 : Fin S128x256.rank) ∈ dot_S128x128_S128x256_S128x256_1_0_0_1_n_n.rhsBatch by decide), dif_pos (show (1 : Fin S128x256.rank) ∈ dot_S128x128_S128x256_S128x256_1_0_0_1_n_n.rhsNonContracting by decide)]
  rfl

/-- The product at (p, q) is the sum over the contracted coordinate of the operands' products. -/
theorem mm_nbr {φ₁ φ₂ : FTy} (L : FVec Ideal S128x128 φ₁) (R : FVec Ideal S128x256 φ₂) (p : Fin 128) (q : Fin 256) :
    matmul dot_S128x128_S128x256_S128x256_1_0_0_1_n_n none L R (constant (F := Ideal) S128x256 .f32 0x00000000#32) (ix2 p q)
      = ∑ k : Fin 128, L (ix2 p k) * R (ix2 k q) := by
  simp only [matmul]
  rw [Ideal.matmul_constant_zero_apply, ← Equiv.sum_comp (ValueIdx.contrEquiv1 dot_S128x128_S128x256_S128x256_1_0_0_1_n_n 128 rfl rfl).symm]
  refine Finset.sum_congr rfl fun k _ => ?_
  have hk := ValueIdx.contrEquiv1_symm_val dot_S128x128_S128x256_S128x256_1_0_0_1_n_n 128 rfl rfl k
  have el : dot_S128x128_S128x256_S128x256_1_0_0_1_n_n.lhsIdx (ix2 p q) ((ValueIdx.contrEquiv1 dot_S128x128_S128x256_S128x256_1_0_0_1_n_n 128 rfl rfl).symm k) = ix2 p k := funext fun a => Fin.ext (by
    match a with
    | ⟨0, _⟩ => exact lhs_nbr_0 _ _
    | ⟨1, _⟩ => exact (lhs_nbr_1 _ _).trans hk)
  have er : dot_S128x128_S128x256_S128x256_1_0_0_1_n_n.rhsIdx (ix2 p q) ((ValueIdx.contrEquiv1 dot_S128x128_S128x256_S128x256_1_0_0_1_n_n 128 rfl rfl).symm k) = ix2 k q := funext fun a => Fin.ext (by
    match a with
    | ⟨0, _⟩ => exact (rhs_nbr_0 _ _).trans hk
    | ⟨1, _⟩ => exact rhs_nbr_1 _ _)
  rw [el, er]

/-! ### The product `[64,128] × [128,256]` into a zero accumulator, read at an index -/

theorem lhs_own_0 (i : S64x256.Idx) (q : dot_S64x128_S128x256_S64x256_1_0_0_1_n_n.contr.Idx) :
    (dot_S64x128_S128x256_S64x256_1_0_0_1_n_n.lhsIdx i q 0).val = (i 0).val := by
  unfold DotDims.lhsIdx
  rw [dif_neg (show ¬(0 : Fin S64x128.rank) ∈ dot_S64x128_S128x256_S64x256_1_0_0_1_n_n.lhsBatch by decide), dif_pos (show (0 : Fin S64x128.rank) ∈ dot_S64x128_S128x256_S64x256_1_0_0_1_n_n.lhsNonContracting by decide)]
  rfl
theorem lhs_own_1 (i : S64x256.Idx) (q : dot_S64x128_S128x256_S64x256_1_0_0_1_n_n.contr.Idx) :
    (dot_S64x128_S128x256_S64x256_1_0_0_1_n_n.lhsIdx i q 1).val = (q ⟨0, by decide⟩).val :=
  dot_S64x128_S128x256_S64x256_1_0_0_1_n_n.lhsIdx_val_of_single rfl i q
theorem rhs_own_0 (i : S64x256.Idx) (q : dot_S64x128_S128x256_S64x256_1_0_0_1_n_n.contr.Idx) :
    (dot_S64x128_S128x256_S64x256_1_0_0_1_n_n.rhsIdx i q 0).val = (q ⟨0, by decide⟩).val :=
  dot_S64x128_S128x256_S64x256_1_0_0_1_n_n.rhsIdx_val_of_single rfl i q
theorem rhs_own_1 (i : S64x256.Idx) (q : dot_S64x128_S128x256_S64x256_1_0_0_1_n_n.contr.Idx) :
    (dot_S64x128_S128x256_S64x256_1_0_0_1_n_n.rhsIdx i q 1).val = (i 1).val := by
  unfold DotDims.rhsIdx
  rw [dif_neg (show ¬(1 : Fin S128x256.rank) ∈ dot_S64x128_S128x256_S64x256_1_0_0_1_n_n.rhsBatch by decide), dif_pos (show (1 : Fin S128x256.rank) ∈ dot_S64x128_S128x256_S64x256_1_0_0_1_n_n.rhsNonContracting by decide)]
  rfl

/-- The product at (p, q) is the sum over the contracted coordinate of the operands' products. -/
theorem mm_own {φ₁ φ₂ : FTy} (L : FVec Ideal S64x128 φ₁) (R : FVec Ideal S128x256 φ₂) (p : Fin 64) (q : Fin 256) :
    matmul dot_S64x128_S128x256_S64x256_1_0_0_1_n_n none L R (constant (F := Ideal) S64x256 .f32 0x00000000#32) (ix2 p q)
      = ∑ k : Fin 128, L (ix2 p k) * R (ix2 k q) := by
  simp only [matmul]
  rw [Ideal.matmul_constant_zero_apply, ← Equiv.sum_comp (ValueIdx.contrEquiv1 dot_S64x128_S128x256_S64x256_1_0_0_1_n_n 128 rfl rfl).symm]
  refine Finset.sum_congr rfl fun k _ => ?_
  have hk := ValueIdx.contrEquiv1_symm_val dot_S64x128_S128x256_S64x256_1_0_0_1_n_n 128 rfl rfl k
  have el : dot_S64x128_S128x256_S64x256_1_0_0_1_n_n.lhsIdx (ix2 p q) ((ValueIdx.contrEquiv1 dot_S64x128_S128x256_S64x256_1_0_0_1_n_n 128 rfl rfl).symm k) = ix2 p k := funext fun a => Fin.ext (by
    match a with
    | ⟨0, _⟩ => exact lhs_own_0 _ _
    | ⟨1, _⟩ => exact (lhs_own_1 _ _).trans hk)
  have er : dot_S64x128_S128x256_S64x256_1_0_0_1_n_n.rhsIdx (ix2 p q) ((ValueIdx.contrEquiv1 dot_S64x128_S128x256_S64x256_1_0_0_1_n_n 128 rfl rfl).symm k) = ix2 k q := funext fun a => Fin.ext (by
    match a with
    | ⟨0, _⟩ => exact (rhs_own_0 _ _).trans hk
    | ⟨1, _⟩ => exact rhs_own_1 _ _)
  rw [el, er]

/-! ### The product `[8192,256] × [256,256]` into a zero accumulator, read at an index -/

theorem lhs_edge_0 (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
theorem lhs_edge_1 (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q
theorem rhs_edge_0 (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q
theorem rhs_edge_1 (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl

/-- The product at (p, q) is the sum over the contracted coordinate of the operands' products. -/
theorem mm_edge {φ₁ φ₂ : FTy} (L : FVec Ideal S8192x256 φ₁) (R : FVec Ideal S256x256 φ₂) (p : Fin 8192) (q : Fin 256) :
    matmul dot_S8192x256_S256x256_S8192x256_1_0_0_1_n_n none L R (constant (F := Ideal) S8192x256 .f32 0x00000000#32) (ix2 p q)
      = ∑ k : Fin 256, L (ix2 p k) * R (ix2 k q) := by
  simp only [matmul]
  rw [Ideal.matmul_constant_zero_apply, ← Equiv.sum_comp (ValueIdx.contrEquiv1 dot_S8192x256_S256x256_S8192x256_1_0_0_1_n_n 256 rfl rfl).symm]
  refine Finset.sum_congr rfl fun k _ => ?_
  have hk := ValueIdx.contrEquiv1_symm_val dot_S8192x256_S256x256_S8192x256_1_0_0_1_n_n 256 rfl rfl k
  have el : dot_S8192x256_S256x256_S8192x256_1_0_0_1_n_n.lhsIdx (ix2 p q) ((ValueIdx.contrEquiv1 dot_S8192x256_S256x256_S8192x256_1_0_0_1_n_n 256 rfl rfl).symm k) = ix2 p k := funext fun a => Fin.ext (by
    match a with
    | ⟨0, _⟩ => exact lhs_edge_0 _ _
    | ⟨1, _⟩ => exact (lhs_edge_1 _ _).trans hk)
  have er : dot_S8192x256_S256x256_S8192x256_1_0_0_1_n_n.rhsIdx (ix2 p q) ((ValueIdx.contrEquiv1 dot_S8192x256_S256x256_S8192x256_1_0_0_1_n_n 256 rfl rfl).symm k) = ix2 k q := funext fun a => Fin.ext (by
    match a with
    | ⟨0, _⟩ => exact (rhs_edge_0 _ _).trans hk
    | ⟨1, _⟩ => exact rhs_edge_1 _ _)
  rw [el, er]

/-! ### The product `[64,256] × [256,256]` into a zero accumulator, read at an index -/

theorem lhs_out_0 (i : S64x256.Idx) (q : dot_S64x256_S256x256_S64x256_1_0_0_1_n_n.contr.Idx) :
    (dot_S64x256_S256x256_S64x256_1_0_0_1_n_n.lhsIdx i q 0).val = (i 0).val := by
  unfold DotDims.lhsIdx
  rw [dif_neg (show ¬(0 : Fin S64x256.rank) ∈ dot_S64x256_S256x256_S64x256_1_0_0_1_n_n.lhsBatch by decide), dif_pos (show (0 : Fin S64x256.rank) ∈ dot_S64x256_S256x256_S64x256_1_0_0_1_n_n.lhsNonContracting by decide)]
  rfl
theorem lhs_out_1 (i : S64x256.Idx) (q : dot_S64x256_S256x256_S64x256_1_0_0_1_n_n.contr.Idx) :
    (dot_S64x256_S256x256_S64x256_1_0_0_1_n_n.lhsIdx i q 1).val = (q ⟨0, by decide⟩).val :=
  dot_S64x256_S256x256_S64x256_1_0_0_1_n_n.lhsIdx_val_of_single rfl i q
theorem rhs_out_0 (i : S64x256.Idx) (q : dot_S64x256_S256x256_S64x256_1_0_0_1_n_n.contr.Idx) :
    (dot_S64x256_S256x256_S64x256_1_0_0_1_n_n.rhsIdx i q 0).val = (q ⟨0, by decide⟩).val :=
  dot_S64x256_S256x256_S64x256_1_0_0_1_n_n.rhsIdx_val_of_single rfl i q
theorem rhs_out_1 (i : S64x256.Idx) (q : dot_S64x256_S256x256_S64x256_1_0_0_1_n_n.contr.Idx) :
    (dot_S64x256_S256x256_S64x256_1_0_0_1_n_n.rhsIdx i q 1).val = (i 1).val := by
  unfold DotDims.rhsIdx
  rw [dif_neg (show ¬(1 : Fin S256x256.rank) ∈ dot_S64x256_S256x256_S64x256_1_0_0_1_n_n.rhsBatch by decide), dif_pos (show (1 : Fin S256x256.rank) ∈ dot_S64x256_S256x256_S64x256_1_0_0_1_n_n.rhsNonContracting by decide)]
  rfl

/-- The product at (p, q) is the sum over the contracted coordinate of the operands' products. -/
theorem mm_out {φ₁ φ₂ : FTy} (L : FVec Ideal S64x256 φ₁) (R : FVec Ideal S256x256 φ₂) (p : Fin 64) (q : Fin 256) :
    matmul dot_S64x256_S256x256_S64x256_1_0_0_1_n_n none L R (constant (F := Ideal) S64x256 .f32 0x00000000#32) (ix2 p q)
      = ∑ k : Fin 256, L (ix2 p k) * R (ix2 k q) := by
  simp only [matmul]
  rw [Ideal.matmul_constant_zero_apply, ← Equiv.sum_comp (ValueIdx.contrEquiv1 dot_S64x256_S256x256_S64x256_1_0_0_1_n_n 256 rfl rfl).symm]
  refine Finset.sum_congr rfl fun k _ => ?_
  have hk := ValueIdx.contrEquiv1_symm_val dot_S64x256_S256x256_S64x256_1_0_0_1_n_n 256 rfl rfl k
  have el : dot_S64x256_S256x256_S64x256_1_0_0_1_n_n.lhsIdx (ix2 p q) ((ValueIdx.contrEquiv1 dot_S64x256_S256x256_S64x256_1_0_0_1_n_n 256 rfl rfl).symm k) = ix2 p k := funext fun a => Fin.ext (by
    match a with
    | ⟨0, _⟩ => exact lhs_out_0 _ _
    | ⟨1, _⟩ => exact (lhs_out_1 _ _).trans hk)
  have er : dot_S64x256_S256x256_S64x256_1_0_0_1_n_n.rhsIdx (ix2 p q) ((ValueIdx.contrEquiv1 dot_S64x256_S256x256_S64x256_1_0_0_1_n_n 256 rfl rfl).symm k) = ix2 k q := funext fun a => Fin.ext (by
    match a with
    | ⟨0, _⟩ => exact (rhs_out_0 _ _).trans hk
    | ⟨1, _⟩ => exact rhs_out_1 _ _)
  rw [el, er]

/-! ### Layout operations of the body read at an index -/

/-- The row of the pair (own row `a`, neighbour row `b`) on the flattened pair axis. -/
abbrev pair (a : Fin 64) (b : Fin 128) : Fin 8192 := ⟨128 * a.val + b.val, by omega⟩

/-- The neighbour-indexed `[128,256]` array laid over the own axis reads (b, h) at (a, b, h). -/
theorem over_own {α : Type} (v : S128x256.Idx → α) (a : Fin 64) (b : Fin 128) (h : Fin 256) :
    broadcastTo S64x128x256 (shapeCast S1x128x256 v shapeCasts_S128x256_S1x128x256) broadcasts_S1x128x256_S64x128x256 (ix3 a b h)
      = v (ix2 b h) := by
  refine (broadcastTo_apply _ _ (ix3 a b h) (ix3 (0 : Fin 1) b h) fun ax => ?_).trans ?_
  · match ax with
    | ⟨0, _⟩ => rfl
    | ⟨1, _⟩ => rfl
    | ⟨2, _⟩ => rfl
  · exact shapeCast_ab_1ab_apply v _ 0 b h

/-- The own-indexed `[64,256]` array laid over the neighbour axis reads (a, h) at (a, b, h). -/
theorem over_nbr {α : Type} (v : S64x256.Idx → α) (a : Fin 64) (b : Fin 128) (h : Fin 256) :
    broadcastTo S64x128x256 (shapeCast S64x1x256 v shapeCasts_S64x256_S64x1x256) broadcasts_S64x1x256_S64x128x256 (ix3 a b h)
      = v (ix2 a h) := by
  refine (broadcastTo_apply _ _ (ix3 a b h) (ix3 a (0 : Fin 1) h) fun ax => ?_).trans ?_
  · match ax with
    | ⟨0, _⟩ => rfl
    | ⟨1, _⟩ => rfl
    | ⟨2, _⟩ => rfl
  · refine shapeCast_apply _ _ _ (ix2 a h) ?_
    rw [Shape.rowMajor_val_two, Shape.rowMajor_val_three]
    show a.val * 256 + h.val = (a.val * 1 + 0) * 256 + h.val
    omega

/-- A `[1,256]` row laid over both the own and the neighbour axis reads (0, h) at (a, b, h). -/
theorem over_both {α : Type} (v : S1x256.Idx → α) (a : Fin 64) (b : Fin 128) (h : Fin 256) :
    broadcastTo S64x128x256 (shapeCast S1x1x256 v shapeCasts_S1x256_S1x1x256) broadcasts_S1x1x256_S64x128x256 (ix3 a b h)
      = v (ix2 (0 : Fin 1) h) := by
  refine (broadcastTo_apply _ _ (ix3 a b h) (ix3 (0 : Fin 1) (0 : Fin 1) h) fun ax => ?_).trans ?_
  · match ax with
    | ⟨0, _⟩ => rfl
    | ⟨1, _⟩ => rfl
    | ⟨2, _⟩ => rfl
  · refine shapeCast_apply _ _ _ (ix2 (0 : Fin 1) h) ?_
    rw [Shape.rowMajor_val_two, Shape.rowMajor_val_three]
    show 0 * 256 + h.val = (0 * 1 + 0) * 256 + h.val
    omega

/-- The `[64,128]` adjacency block laid over the feature axis reads (a, b) at (a, b, k). -/
theorem over_feat {α : Type} (v : S64x128.Idx → α) (a : Fin 64) (b : Fin 128) (k : Fin 256) :
    broadcastTo S64x128x256 (shapeCast S64x128x1 v shapeCasts_S64x128_S64x128x1) broadcasts_S64x128x1_S64x128x256 (ix3 a b k)
      = v (ix2 a b) := by
  refine (broadcastTo_apply _ _ (ix3 a b k) (ix3 a b (0 : Fin 1)) fun ax => ?_).trans ?_
  · match ax with
    | ⟨0, _⟩ => rfl
    | ⟨1, _⟩ => rfl
    | ⟨2, _⟩ => rfl
  · refine shapeCast_apply _ _ _ (ix2 a b) ?_
    rw [Shape.rowMajor_val_two, Shape.rowMajor_val_three]
    show a.val * 128 + b.val = (a.val * 128 + b.val) * 1 + 0
    omega

/-- The `[64,128,256]` array flattened to `[8192,256]` reads (a, b, h) at row `128·a + b`. -/
theorem flatten_apply {α : Type} (v : S64x128x256.Idx → α) (a : Fin 64) (b : Fin 128) (h : Fin 256) :
    shapeCast S8192x256 v shapeCasts_S64x128x256_S8192x256 (ix2 (pair a b) h) = v (ix3 a b h) := by
  refine shapeCast_apply _ _ _ (ix3 a b h) ?_
  rw [Shape.rowMajor_val_two, Shape.rowMajor_val_three]
  show (a.val * 128 + b.val) * 256 + h.val = (128 * a.val + b.val) * 256 + h.val
  omega

/-- The `[8192,256]` array unflattened to `[64,128,256]` reads row `128·a + b` at (a, b, k). -/
theorem unflatten_apply {α : Type} (v : S8192x256.Idx → α) (a : Fin 64) (b : Fin 128) (k : Fin 256) :
    shapeCast S64x128x256 v shapeCasts_S8192x256_S64x128x256 (ix3 a b k) = v (ix2 (pair a b) k) := by
  refine shapeCast_apply _ _ _ (ix2 (pair a b) k) ?_
  rw [Shape.rowMajor_val_two, Shape.rowMajor_val_three]
  show (128 * a.val + b.val) * 256 + k.val = (a.val * 128 + b.val) * 256 + k.val
  omega

/-! ### The payloads at an index -/

/-- The bias row's reshape onto itself changes nothing. -/
theorem pay4_eq (v : Vec Ideal S1x256 .f32) : k0_pay4 (F := Ideal) v = v := by
  unfold k0_pay4
  exact shapeCast_self _ _

/-- The accumulator's reset value is zero everywhere. -/
theorem pay3_apply (y : S64x256.Idx) : k0_pay3 (F := Ideal) y = 0 := by
  unfold k0_pay3
  rw [shapeCast_self]
  exact Cert.Consts.ofBits_zero

/-- The edge network before its bias, at the pair (a, b) and output feature k: the hidden layer
    max ((xj·Waᵀ + xi·Wbᵀ) + b1) 0 contracted against row k of W2. -/
theorem pay5_apply (xi : Vec Ideal S64x128 .f32) (xj : Vec Ideal S128x128 .f32) (Wa Wb : Vec Ideal S256x128 .f32)
    (b1r : Vec Ideal S1x256 .f32) (W2 : Vec Ideal S256x256 .f32) (a : Fin 64) (b : Fin 128) (k : Fin 256) :
    k0_pay5 (F := Ideal) xi xj Wa Wb b1r W2 (ix2 (pair a b) k)
      = ∑ h : Fin 256, max (((∑ d : Fin 128, xj (ix2 b d) * Wa (ix2 h d)) + (∑ d : Fin 128, xi (ix2 a d) * Wb (ix2 h d)))
          + b1r (ix2 (0 : Fin 1) h)) 0 * W2 (ix2 k h) := by
  unfold k0_pay5
  dsimp only
  refine (mm_edge _ _ (pair a b) k).trans ?_
  refine Finset.sum_congr rfl fun h _ => ?_
  refine congrArg₂ (· * ·) ?_ ?_
  · -- the hidden layer at the pair's row is the rank-3 value at (a, b, h)
    refine (flatten_apply _ a b h).trans ?_
    refine (truncf_apply (ψ := .bf16) _ bitsLt_bf16_f32 _).trans ?_
    refine (maximumf_apply _ _ _).trans ?_
    refine congrArg₂ max ?_ ?_
    · refine (addf_apply _ _ _).trans ?_
      refine congrArg₂ (· + ·) ?_ ?_
      · refine (addf_apply _ _ _).trans ?_
        refine congrArg₂ (· + ·) ?_ ?_
        · -- the neighbour block's product with Waᵀ at (b, h)
          refine (over_own _ a b h).trans ?_
          refine (mm_nbr _ _ b h).trans ?_
          refine Finset.sum_congr rfl fun d _ => ?_
          refine congrArg₂ (· * ·) rfl ?_
          refine (transpose_ix2_apply _ _ d h).trans ?_
          refine (truncf_apply (ψ := .bf16) _ bitsLt_bf16_f32 _).trans ?_
          rw [shapeCast_self]
        · -- the own block's product with Wbᵀ at (a, h)
          refine (over_nbr _ a b h).trans ?_
          refine (mm_own _ _ a h).trans ?_
          refine Finset.sum_congr rfl fun d _ => ?_
          refine congrArg₂ (· * ·) rfl ?_
          refine (transpose_ix2_apply _ _ d h).trans ?_
          refine (truncf_apply (ψ := .bf16) _ bitsLt_bf16_f32 _).trans ?_
          rw [shapeCast_self]
      · refine (over_both _ a b h).trans ?_
        rw [shapeCast_self]
    · exact Cert.Consts.ofBits_zero
  · exact transpose_ix2_apply _ _ h k

/-- The accumulator after the point: what it held plus the adjacency-weighted sum over the block's 128 neighbours of
    the edge output (the product `e` plus the bias row). -/
theorem pay1_apply (b2r : FVec Ideal S1x256 .f32) (e : FVec Ideal S8192x256 .f32) (adjb : Vec Ideal S64x128 .f32)
    (acc : Vec Ideal S64x256 .f32) (a : Fin 64) (k : Fin 256) :
    k0_pay1 (F := Ideal) b2r e adjb acc (ix2 a k)
      = acc (ix2 a k) + ∑ b : Fin 128, adjb (ix2 a b) * (e (ix2 (pair a b) k) + b2r (ix2 (0 : Fin 1) k)) := by
  unfold k0_pay1
  dsimp only
  rw [shapeCast_self]
  refine (addf_apply _ _ _).trans ?_
  refine congrArg₂ (· + ·) rfl ?_
  refine (Ideal.multiReduction_add_single _ _ reduces_S64x128x256_S64x256 _ _ (ix2 a k)).trans ?_
  refine Finset.sum_congr rfl fun b _ => ?_
  have hl : reduces_S64x128x256_S64x256.lift (ix2 a k) b = ix3 a b k := funext fun ax => Fin.ext (by
    match ax with
    | ⟨0, _⟩ => rfl
    | ⟨1, _⟩ => rfl
    | ⟨2, _⟩ => rfl)
  rw [hl]
  refine (mulf_apply _ _ _).trans ?_
  refine congrArg₂ (· * ·) ?_ ?_
  · exact over_feat _ a b k
  · refine (unflatten_apply _ a b k).trans ?_
    refine (addf_apply _ _ _).trans ?_
    refine congrArg₂ (· + ·) rfl ?_
    exact broadcastTo_1b_ab_apply _ _ (pair a b) k

/-- The output network on the finished accumulator: the mean (the product with 1/512), a rectified dense layer and
    a dense layer. -/
theorem pay2_apply (acc : Vec Ideal S64x256 .f32) (Wo1 : Vec Ideal S256x256 .f32) (bo1r : Vec Ideal S1x256 .f32)
    (Wo2 : Vec Ideal S256x256 .f32) (bo2r : Vec Ideal S1x256 .f32) (a : Fin 64) (o : Fin 256) :
    k0_pay2 (F := Ideal) acc Wo1 bo1r Wo2 bo2r (ix2 a o)
      = (∑ l : Fin 256, max ((∑ k : Fin 256, (acc (ix2 a k) * ((1 / 512 : ℝ) : EReal)) * Wo1 (ix2 l k))
          + bo1r (ix2 (0 : Fin 1) l)) 0 * Wo2 (ix2 o l)) + bo2r (ix2 (0 : Fin 1) o) := by
  unfold k0_pay2
  dsimp only
  refine (addf_apply _ _ _).trans ?_
  refine congrArg₂ (· + ·) ?_ ?_
  · refine (mm_out _ _ a o).trans ?_
    refine Finset.sum_congr rfl fun l _ => ?_
    refine congrArg₂ (· * ·) ?_ ?_
    · refine (truncf_apply (ψ := .bf16) _ bitsLt_bf16_f32 _).trans ?_
      refine (maximumf_apply _ _ _).trans ?_
      refine congrArg₂ max ?_ ?_
      · refine (addf_apply _ _ _).trans ?_
        refine congrArg₂ (· + ·) ?_ ?_
        · refine (mm_out _ _ a l).trans ?_
          refine Finset.sum_congr rfl fun k _ => ?_
          refine congrArg₂ (· * ·) ?_ ?_
          · refine (truncf_apply (ψ := .bf16) _ bitsLt_bf16_f32 _).trans ?_
            refine (mulf_apply _ _ _).trans ?_
            exact congrArg (acc (ix2 a k) * ·) Cert.Consts.ofBits_inv512
          · exact transpose_ix2_apply _ _ k l
        · refine (broadcastTo_1b_ab_apply _ _ a l).trans ?_
          rw [shapeCast_self]
      · exact Cert.Consts.ofBits_zero
    · exact transpose_ix2_apply _ _ l o
  · refine (broadcastTo_1b_ab_apply _ _ a o).trans ?_
    rw [shapeCast_self]

end Cert.KernelIdeal.Pay

end
-- ==== Proof.KI.Inv.lean ====
/-
  What the accumulator and the output block hold, at an index, as sums over the argument arrays.

  After point t (row block t / 4, neighbour block t % 4) the accumulator's entry (a, k) is the adjacency-weighted
  sum of the edge network's output over the neighbours seen so far in this row of blocks — the neighbours
  j < 128·(t % 4 + 1) — for the own row 64·(t / 4) + a: by induction on the point, a resetting point starting the
  sum from zero and every other point adding its 128 neighbours to what the point before left. At the last point of
  a row of blocks every neighbour has been seen, the sum is the specification's `agg`, and the output block is the
  specification's `out` on those 64 own rows.
-/
import proofs.«108502_j1580547967222_1_alg».proof.Proof.KI.Outs
import proofs.«108502_j1580547967222_1_alg».proof.Proof.KI.Pieces
import proofs.«108502_j1580547967222_1_alg».proof.Proof.KI.Blocks
import proofs.«108502_j1580547967222_1_alg».proof.Proof.KI.Pay
import proofs.«108502_j1580547967222_1_alg».proof.Proof.Spec

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Fr

variable (m : (ℓ : Loc nD τ sig) → Buf (Elt Ideal) ℓ)

/-- Neighbour `j`'s contribution to the aggregate of own row `i` at feature `k`. -/
abbrev term (c : Dev nD) (i : Fin 512) (k : Fin 256) (j : Fin 512) : EReal :=
  aAdj m c (ix2 i j) * Cert.Spec.edge (aX m c) (aW1 m c) (aB1 m c) (aW2 m c) (aB2 m c) i j k

/-- The neighbours below `128·(q + 1)` are those below `128·q` and the 128 of block `q`. -/
theorem inv_sum_split (f : Fin 512 → EReal) (q : ℕ) (hq : q < 4) :
    ∑ j ∈ Finset.univ.filter (fun j : Fin 512 => j.val < 128 * (q + 1)), f j
      = ∑ j ∈ Finset.univ.filter (fun j : Fin 512 => j.val < 128 * q), f j
        + ∑ b : Fin 128, f ⟨128 * q + b.val, by omega⟩ := by
  have hset : Finset.univ.filter (fun j : Fin 512 => j.val < 128 * (q + 1))
      = Finset.univ.filter (fun j : Fin 512 => j.val < 128 * q)
        ∪ Finset.univ.image (fun b : Fin 128 => (⟨128 * q + b.val, by omega⟩ : Fin 512)) := by
    ext j
    simp only [Finset.mem_filter, Finset.mem_univ, true_and, Finset.mem_union, Finset.mem_image]
    constructor
    · intro h
      by_cases h' : j.val < 128 * q
      · exact Or.inl h'
      · exact Or.inr ⟨⟨j.val - 128 * q, by omega⟩, Fin.ext (by show 128 * q + (j.val - 128 * q) = j.val; omega)⟩
    · rintro (h | ⟨b, rfl⟩)
      · omega
      · show 128 * q + b.val < 128 * (q + 1)
        omega
  have hdisj : Disjoint (Finset.univ.filter (fun j : Fin 512 => j.val < 128 * q))
      (Finset.univ.image (fun b : Fin 128 => (⟨128 * q + b.val, by omega⟩ : Fin 512))) := by
    rw [Finset.disjoint_left]
    intro j hj hj'
    simp only [Finset.mem_filter, Finset.mem_univ, true_and, Finset.mem_image] at hj hj'
    obtain ⟨b, rfl⟩ := hj'
    have : 128 * q + b.val < 128 * q := hj
    omega
  rw [hset, Finset.sum_union hdisj, Finset.sum_image]
  intro b1 _ b2 _ h
  have := congrArg Fin.val h
  exact Fin.ext (by have h' : 128 * q + b1.val = 128 * q + b2.val := this; omega)

/-- One point's partial sum over what the accumulator held: the point's 128 neighbours' contributions added. -/
theorem inv_step (c : Dev nD) (t : Fin cfg0.N) (acc : Vec Ideal S64x256 .f32) (a : Fin 64) (k : Fin 256) :
    k0_pay1 (F := Ideal) (k0_pay4 (blk7 m c t)) (k0_pay5 (blk0 m c t) (blk1 m c t) (blk3 m c t) (blk4 m c t) (blk5 m c t) (blk6 m c t)) (blk2 m c t) acc (ix2 a k)
      = acc (ix2 a k) + ∑ b : Fin 128, term m c (own t a) k (nbr t b) := by
  refine (Pay.pay1_apply (k0_pay4 (blk7 m c t)) (k0_pay5 (blk0 m c t) (blk1 m c t) (blk3 m c t) (blk4 m c t) (blk5 m c t) (blk6 m c t)) (blk2 m c t) acc a k).trans ?_
  refine congrArg (acc (ix2 a k) + ·) (Finset.sum_congr rfl fun b _ => ?_)
  rw [Pay.pay4_eq (blk7 m c t), Pay.pay5_apply (blk0 m c t) (blk1 m c t) (blk3 m c t) (blk4 m c t) (blk5 m c t) (blk6 m c t) a b k,
    blk2_apply m c t a b, blk7_apply m c t k]
  show _ = aAdj m c (ix2 (own t a) (nbr t b)) * Cert.Spec.edge (aX m c) (aW1 m c) (aB1 m c) (aW2 m c) (aB2 m c) (own t a) (nbr t b) k
  unfold Cert.Spec.edge Cert.Spec.hid Cert.Spec.pa Cert.Spec.pb
  simp only [blk0_apply m c t, blk1_apply m c t, blk3_apply m c t, blk4_apply m c t, blk5_apply m c t, blk6_apply m c t]

/-- The accumulator after each point, by induction on the point. -/
theorem inv_scAt (c : Dev nD) : ∀ (n : ℕ) (t : Fin cfg0.N), t.val = n → ∀ (a : Fin 64) (k : Fin 256),
    scAt m c t.val t.isLt (ix2 a k)
      = ∑ j ∈ Finset.univ.filter (fun j : Fin 512 => j.val < 128 * (t.val % 4 + 1)), term m c (own t a) k j := by
  intro n
  induction n using Nat.strong_induction_on with
  | _ n ih =>
    intro t ht a k
    have hN : t.val < 32 := lt_of_lt_of_eq t.isLt (show cfg0.N = 32 from N_0)
    by_cases h0 : t.val % 4 = 0
    · -- a resetting point: zero plus the first 128 neighbours
      have h1 : ¬t.val % 4 = 3 := by omega
      refine (congrFun (scAt_A m c t h0 h1) (ix2 a k)).trans ?_
      refine (congrFun (sout0_A_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 a k)).trans ?_
      refine (inv_step m c t (k0_pay3 (F := Ideal)) a k).trans ?_
      rw [Pay.pay3_apply, inv_sum_split _ (t.val % 4) (by omega)]
      refine congrArg₂ (· + ·) ?_ rfl
      refine (Finset.sum_eq_zero fun j hj => ?_).symm
      simp only [Finset.mem_filter, Finset.mem_univ, true_and] at hj
      omega
    · -- a later point: what the point before left plus the next 128 neighbours
      have hpos : 0 < t.val := by omega
      have hlt : t.val - 1 < cfg0.N := Nat.lt_of_le_of_lt (Nat.sub_le _ _) t.isLt
      have e : scAt m c (t.val - 1) hlt (ix2 a k)
          = ∑ j ∈ Finset.univ.filter (fun j : Fin 512 => j.val < 128 * ((t.val - 1) % 4 + 1)), term m c (own ⟨t.val - 1, hlt⟩ a) k j :=
        ih (t.val - 1) (by omega) ⟨t.val - 1, hlt⟩ rfl a k
      have hown : own ⟨t.val - 1, hlt⟩ a = own t a := Fin.ext (by
        show 64 * ((t.val - 1) / 4) + a.val = 64 * (t.val / 4) + a.val
        omega)
      have hq : 128 * ((t.val - 1) % 4 + 1) = 128 * (t.val % 4) := by omega
      rw [hown, hq] at e
      have step : k0_pay1 (F := Ideal) (k0_pay4 (blk7 m c t)) (k0_pay5 (blk0 m c t) (blk1 m c t) (blk3 m c t) (blk4 m c t) (blk5 m c t) (blk6 m c t)) (blk2 m c t) (scAt m c (t.val - 1) (Nat.lt_of_le_of_lt (Nat.sub_le _ _) t.isLt)) (ix2 a k)
          = ∑ j ∈ Finset.univ.filter (fun j : Fin 512 => j.val < 128 * (t.val % 4 + 1)), term m c (own t a) k j := by
        refine (inv_step m c t (scAt m c (t.val - 1) (Nat.lt_of_le_of_lt (Nat.sub_le _ _) t.isLt)) a k).trans ?_
        rw [inv_sum_split _ (t.val % 4) (by omega)]
        exact congrArg₂ (· + ·) e rfl
      by_cases h1 : t.val % 4 = 3
      · refine (congrFun (scAt_C m c t h0 h1) (ix2 a k)).trans ?_
        refine (congrFun (sout0_C_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (scAt m c (t.val - 1) (Nat.lt_of_le_of_lt (Nat.sub_le _ _) t.isLt))) (ix2 a k)).trans ?_
        exact step
      · refine (congrFun (scAt_B m c t h0 h1) (ix2 a k)).trans ?_
        refine (congrFun (sout0_B_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (scAt m c (t.val - 1) (Nat.lt_of_le_of_lt (Nat.sub_le _ _) t.isLt))) (ix2 a k)).trans ?_
        exact step

/-- The accumulator after point `t`: the contributions of the neighbours seen so far in this row of blocks. -/
theorem scAt_apply (c : Dev nD) (t : Fin cfg0.N) (a : Fin 64) (k : Fin 256) :
    scAt m c t.val t.isLt (ix2 a k)
      = ∑ j ∈ Finset.univ.filter (fun j : Fin 512 => j.val < 128 * (t.val % 4 + 1)), term m c (own t a) k j :=
  inv_scAt m c t.val t rfl a k

/-- The output block at the last point of a row of blocks: the specification's output on the block's own rows. -/
theorem outAt_apply (c : Dev nD) (t : Fin cfg0.N) (h1 : t.val % 4 = 3) (a : Fin 64) (o : Fin 256) :
    outAt m c t (ix2 a o) = Cert.Spec.out (aX m c) (aAdj m c) (aW1 m c) (aB1 m c) (aW2 m c) (aB2 m c) (aWo1 m c) (aBo1 m c) (aWo2 m c) (aBo2 m c) (own t a) o := by
  have h0 : ¬t.val % 4 = 0 := by omega
  -- the finished accumulator is the accumulator after this point
  have hacc : k0_pay1 (F := Ideal) (k0_pay4 (blk7 m c t)) (k0_pay5 (blk0 m c t) (blk1 m c t) (blk3 m c t) (blk4 m c t) (blk5 m c t) (blk6 m c t)) (blk2 m c t) (scAt m c (t.val - 1) (Nat.lt_of_le_of_lt (Nat.sub_le _ _) t.isLt)) = scAt m c t.val t.isLt :=
    ((scAt_C m c t h0 h1).trans (sout0_C_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (scAt m c (t.val - 1) (Nat.lt_of_le_of_lt (Nat.sub_le _ _) t.isLt)))).symm
  -- and after the last point of a row of blocks it holds the whole aggregate
  have hagg : ∀ k : Fin 256, scAt m c t.val t.isLt (ix2 a k)
      = Cert.Spec.agg (aX m c) (aAdj m c) (aW1 m c) (aB1 m c) (aW2 m c) (aB2 m c) (own t a) k := by
    intro k
    rw [scAt_apply m c t a k, Finset.filter_true_of_mem (fun j _ => by have := j.isLt; omega)]
    rfl
  refine (congrFun (outAt_C m c t h0 h1) (ix2 a o)).trans ?_
  refine (congrFun (out0_C_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (scAt m c (t.val - 1) (Nat.lt_of_le_of_lt (Nat.sub_le _ _) t.isLt))) (ix2 a o)).trans ?_
  refine (congrFun (congrArg (fun v => k0_pay2 (F := Ideal) v (blk8 m c t) (blk9 m c t) (blk10 m c t) (blk11 m c t)) hacc) (ix2 a o)).trans ?_
  refine (Pay.pay2_apply (scAt m c t.val t.isLt) (blk8 m c t) (blk9 m c t) (blk10 m c t) (blk11 m c t) a o).trans ?_
  unfold Cert.Spec.out Cert.Spec.h2 Cert.Spec.pred
  simp only [hagg, blk8_apply m c t, blk9_apply m c t, blk10_apply m c t, blk11_apply m c t]

end Cert.KernelIdeal.Val

end
-- ==== Proof.KI.Final.lean ====
/-
  From blocks to the array: the output window's block at the last point of each row of blocks is the block of the
  specification `Spec.G` on that row block's 64 own rows, the eight row blocks tile the [512, 256] result, so after
  the run the result array is `Spec.G` of the ten argument arrays; and the run, re-posted with that value.
-/
import proofs.«108502_j1580547967222_1_alg».proof.Proof.KI.Frame
import proofs.«108502_j1580547967222_1_alg».proof.Proof.KI.Inv

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr

variable (m : (ℓ : Loc nD τ sig) → Buf (Elt Ideal) ℓ) (ρ : Dev nD → PrngReg)

/-- The specification of the ten argument arrays on core `c`. -/
abbrev GA (c : Dev nD) : S512x256.Idx → EReal := Cert.Spec.G (aX m c) (aAdj m c) (aW1 m c) (aB1 m c) (aW2 m c) (aB2 m c) (aWo1 m c) (aBo1 m c) (aWo2 m c) (aBo2 m c)

/-- The output window's block index at a point: the row block, and column block 0. -/
theorem idx_out : ∀ t : Fin cfg0.N, win0_12.index t (0 : Fin 2) = t.val / 4 ∧ win0_12.index t (1 : Fin 2) = 0 :=
  (by decide +kernel : ∀ t : Fin grid0.N, win0_12.index t (0 : Fin 2) = t.val / 4 ∧ win0_12.index t (1 : Fin 2) = 0)

/-- What a flushing point writes back is its block of the specification. -/
theorem flushed_eq (c : Dev nD) (t : Fin cfg0.N) (hf : (cfg0.win 12).flush t = true) :
    (dats m 0 c).flushed 12 t = ((cfg0.win 12).blk t).view.read (Elt Ideal) (GA m c) := by
  have h1 : t.val % 4 = 3 := (flush0_12 t).mp hf
  obtain ⟨e0, e1⟩ := idx_out t
  show (cfg0.win 12).cut (grid0.coords t) ((dats m 0 c).after 12 t) = _
  rw [after0_12]
  funext j
  obtain ⟨a, o, rfl⟩ : ∃ (a : Fin 64) (o : Fin 256), j = ix2 a o := ⟨j 0, j 1, eq_ix2 j⟩
  show outAt m c t (ix2 a o) = GA m c (((cfg0.win 12).blk t).view.emb (ix2 a o))
  rw [outAt_apply m c t h1 a o]
  have he : ((cfg0.win 12).blk t).view.emb (ix2 a o) = ix2 (own t a) o := by
    funext x; apply Fin.ext
    match x with
    | ⟨0, _⟩ => show win0_12.index t (0 : Fin 2) * 64 + 1 * a.val = 64 * (t.val / 4) + a.val; omega
    | ⟨1, _⟩ => show win0_12.index t (1 : Fin 2) * 256 + 1 * o.val = o.val; omega
  rw [he]
  rfl

/-- An index of the result is in point `t`'s block iff each coordinate is in the block's range on its axis. -/
theorem mem_blk (t : Fin cfg0.N) (i : S512x256.Idx) :
    i ∈ ((cfg0.win 12).blk t).view.set ↔ ∀ a : Fin 2, win0_12.index t a * S64x256.size a ≤ (i a).val ∧ (i a).val < win0_12.index t a * S64x256.size a + S64x256.size a := by
  show i ∈ ((View.whole main_v6).slice (win0_12.rect t)).set ↔ _
  rw [View.set_slice_whole, Rect.mem_set_unit]
  exact Iff.rfl

/-- Every index of the result is in the block of the last point of its row block. -/
theorem cover (i : S512x256.Idx) : ∃ t : Fin cfg0.N, (cfg0.win 12).flush t = true ∧ i ∈ ((cfg0.win 12).blk t).view.set := by
  have hi0 : (i 0).val < 512 := (i 0).isLt
  have hi1 : (i 1).val < 256 := (i 1).isLt
  have hN : cfg0.N = 32 := N_0
  have ht : 4 * ((i 0).val / 64) + 3 < cfg0.N := by rw [hN]; omega
  obtain ⟨e0, e1⟩ := idx_out ⟨4 * ((i 0).val / 64) + 3, ht⟩
  refine ⟨⟨4 * ((i 0).val / 64) + 3, ht⟩, (flush0_12 _).mpr (by show (4 * ((i 0).val / 64) + 3) % 4 = 3; omega), ?_⟩
  rw [mem_blk]
  intro a
  match a with
  | ⟨0, _⟩ =>
    show win0_12.index ⟨4 * ((i 0).val / 64) + 3, ht⟩ (0 : Fin 2) * 64 ≤ (i 0).val ∧ (i 0).val < win0_12.index ⟨4 * ((i 0).val / 64) + 3, ht⟩ (0 : Fin 2) * 64 + 64
    have : (4 * ((i 0).val / 64) + 3) / 4 = (i 0).val / 64 := by omega
    simp only [] at e0
    omega
  | ⟨1, _⟩ =>
    show win0_12.index ⟨4 * ((i 0).val / 64) + 3, ht⟩ (1 : Fin 2) * 256 ≤ (i 1).val ∧ (i 1).val < win0_12.index ⟨4 * ((i 0).val / 64) + 3, ht⟩ (1 : Fin 2) * 256 + 256
    omega

/-- The result array after the run is the specification of the ten argument arrays. -/
theorem final (c : Dev nD) : (dats m 0 c).arrAt 12 cfg0.N = GA m c :=
  (dats m 0 c).arrAt_eq_of_cover 12 (GA m c) (fun t hf => flushed_eq m c t hf) (cover)

/-- The run, read: the result at the specification, the ten argument arrays unchanged. -/
theorem run : θ_run defs (onTc (τ := τ) (main (F := Ideal))) ⟨m, fun _ => 0, ρ⟩ (fun r => ∀ c : Dev nD,
      r.2.mem ((c.tc : Thread nD τ).loc main_v6) = GA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).1 12).trans (final m c),
    ((h c).1 0).trans (((dats m 0 c).arrAt_in 0 rfl _).trans ((A_eq m c 0).trans (V_main_arg0 m c))),
    ((h c).1 2).trans (((dats m 0 c).arrAt_in 2 rfl _).trans ((A_eq m c 2).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 6).trans (((dats m 0 c).arrAt_in 6 rfl _).trans ((A_eq m c 6).trans (V_main_arg4 m c))),
    ((h c).2 main_arg5 (Pipeline.mem_restRefs_of main_arg5 (by decide) (by decide))).trans (V_main_arg5 m c),
    ((h c).1 8).trans (((dats m 0 c).arrAt_in 8 rfl _).trans ((A_eq m c 8).trans (V_main_arg6 m c))),
    ((h c).2 main_arg7 (Pipeline.mem_restRefs_of main_arg7 (by decide) (by decide))).trans (V_main_arg7 m c),
    ((h c).1 10).trans (((dats m 0 c).arrAt_in 10 rfl _).trans ((A_eq m c 10).trans (V_main_arg8 m c))),
    ((h c).2 main_arg9 (Pipeline.mem_restRefs_of main_arg9 (by decide) (by decide))).trans (V_main_arg9 m c)⟩) (run_main m ρ)

end Cert.KernelIdeal.Val

end
-- ==== Proof.lean ====
/-
  The certificate: the kernel and its jnp reference compute one function of their ten arguments over the extended
  reals, and each program runs to its end, faulting nowhere, with its arguments unchanged.

  Both programs compute `Spec.G`: an edge network on every pair (own row i, neighbour row j) of x — a rectified
  dense layer on the concatenation (x[j], x[i]), its weight W1 split into the half acting on x[j] and the half
  acting on x[i], then a dense layer W2 —, the adjacency-weighted mean of its output over the 512 neighbours, and a
  two-layer output network. The reference lays the pairs out as one [512, 512, 256] array and divides the neighbour
  sum by 512. The kernel walks an 8 × 4 grid of (64 own rows) × (128 neighbour rows) blocks, keeps the neighbour
  sum of a row block in a scratch accumulator across the four neighbour blocks (reset at the first, read at the
  last), multiplies by 2⁻⁹ = 1/512 and runs the output network at the last. On the extended reals the two are equal
  with no side condition: the sum over 512 neighbours is the sum of the four blocks' sums (addition there is
  commutative and associative), dividing by 512 is multiplying by 1/512 on every extended real, the matrix unit's
  products into a zero accumulator are plain sums, and changes of float format are the identity.

  The kernel hands x to its pipeline twice (own rows and neighbour rows): the two windows each hold a half share
  of the one array, which is enough to read it.
-/
import proofs.«108502_j1580547967222_1_alg».proof.Defs
import proofs.«108502_j1580547967222_1_alg».proof.Proof.Gen.Kernel
import proofs.«108502_j1580547967222_1_alg».proof.Proof.Gen.KernelIdeal
import proofs.«108502_j1580547967222_1_alg».proof.Proof.Gen.ReferenceIdeal
import proofs.«108502_j1580547967222_1_alg».proof.Proof.Gen.Pre_finite_inputs
import proofs.«108502_j1580547967222_1_alg».proof.Proof.Gen.ReferenceIdeal.Run
import proofs.«108502_j1580547967222_1_alg».proof.Proof.Gen.ReferenceIdeal.Read
import proofs.«108502_j1580547967222_1_alg».proof.Proof.RefSpec
import proofs.«108502_j1580547967222_1_alg».proof.Proof.K.Frame
import proofs.«108502_j1580547967222_1_alg».proof.Proof.KI.Final
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_p : Cert.frame_Kernel (hKernel := Cert.Kernel.Gen.facts) (hPre_finite_inputs := Cert.Pre_finite_inputs.Gen.facts) :=
  fun m ρ _ => Cert.Kernel.Fr.frame m ρ

/-- So does the kernel read over the extended reals. -/
theorem frame_pi : Cert.frame_KernelIdeal (hKernelIdeal := Cert.KernelIdeal.Gen.facts) (hPre_finite_inputs := Cert.Pre_finite_inputs.Gen.facts) :=
  fun m ρ _ => Cert.KernelIdeal.Fr.frame m ρ

/-- The reference is a straight line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the ten arguments both programs end with the result at `Spec.G` of them. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Val.GA m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v35_eq (F := Ideal) _ _ _ _ _ _ _ _ _ _).trans ((Cert.RefSpec.ref_eq _ _ _ _ _ _ _ _ _ _).trans ?_)
  obtain ⟨h0, h1, h2, h3, h4, h5, h6, h7, h8, h9⟩ := hagree c
  rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
